-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S4x64x256x256 : Shape := ⟨4, ![4, 64, 256, 256]⟩
abbrev S_ : Shape := ⟨0, ![]⟩

class Facts : Prop where
  bcast_S_S4x64x256x256 : S_.BroadcastsInDim S4x64x256x256 (![] : Fin 0 → Fin S4x64x256x256.rank)
  reducesTo_S4x64x256x256_S_d0_1_2_3 : S4x64x256x256.ReducesTo [0, 1, 2, 3] S_
  h_S_ : 0 < S_.numel

variable [Facts]

def fn {F : FTy → Type} [FloatOps F] (main_arg0 : IVec S4x64x256x256 32) (main_arg1 : IVec S4x64x256x256 32) : IVec S_ 1 :=
  let main_c : IVec S_ 32 := constantI S_ 32 0#32
  let main_v0 : IVec S4x64x256x256 32 := broadcastInDim S4x64x256x256 ![] bcast_S_S4x64x256x256 main_c
  let main_v1 : IVec S4x64x256x256 1 := cmpi .sge main_arg0 main_v0
  let main_c_0 : IVec S_ 32 := constantI S_ 32 5#32
  let main_v2 : IVec S4x64x256x256 32 := broadcastInDim S4x64x256x256 ![] bcast_S_S4x64x256x256 main_c_0
  let main_v3 : IVec S4x64x256x256 1 := cmpi .slt main_arg0 main_v2
  let main_v4 : IVec S4x64x256x256 1 := andi main_v1 main_v3
  let main_c_1 : IVec S_ 32 := constantI S_ 32 0#32
  let main_v5 : IVec S4x64x256x256 32 := broadcastInDim S4x64x256x256 ![] bcast_S_S4x64x256x256 main_c_1
  let main_v6 : IVec S4x64x256x256 1 := cmpi .sge main_arg1 main_v5
  let main_v7 : IVec S4x64x256x256 1 := andi main_v4 main_v6
  let main_c_2 : IVec S_ 32 := constantI S_ 32 5#32
  let main_v8 : IVec S4x64x256x256 32 := broadcastInDim S4x64x256x256 ![] bcast_S_S4x64x256x256 main_c_2
  let main_v9 : IVec S4x64x256x256 1 := cmpi .slt main_arg1 main_v8
  let main_v10 : IVec S4x64x256x256 1 := andi main_v7 main_v9
  let main_c_3 : IVec S_ 1 := constantI S_ 1 1#1
  let main_v11 : IVec S_ 1 := (fun x v => Host.reduce IntOp.andi x v reducesTo_S4x64x256x256_S_d0_1_2_3 h_S_) main_v10 main_c_3
  main_v11
-- ==== Kernel.lean ====
abbrev S4x64x256x256 : Shape := ⟨4, ![4, 64, 256, 256]⟩
abbrev S4x4194304 : Shape := ⟨2, ![4, 4194304]⟩
abbrev S4x15 : Shape := ⟨2, ![4, 15]⟩
abbrev S4x131072 : Shape := ⟨2, ![4, 131072]⟩
abbrev S4 : Shape := ⟨1, ![4]⟩
abbrev S4x1 : Shape := ⟨2, ![4, 1]⟩
abbrev S4x5 : Shape := ⟨2, ![4, 5]⟩
abbrev S_ : Shape := ⟨0, ![]⟩
abbrev S5 : Shape := ⟨1, ![5]⟩

abbrev nBuf : Space → Nat
  | .hbm => 29
  | .vmem => 6
  | .smem => 0
  | _ => 0

abbrev bufTy : (tb : Table) → Fin (tcTables nBuf tb) → BufTy
  | .hbm, ⟨0, _⟩ => ⟨S4x64x256x256, .i32⟩
  | .hbm, ⟨1, _⟩ => ⟨S4x64x256x256, .i32⟩
  | .hbm, ⟨2, _⟩ => ⟨S4x4194304, .i32⟩
  | .hbm, ⟨3, _⟩ => ⟨S4x4194304, .i32⟩
  | .hbm, ⟨4, _⟩ => ⟨S4x15, .f32⟩
  | .hbm, ⟨5, _⟩ => ⟨S4x5, .f32⟩
  | .hbm, ⟨6, _⟩ => ⟨S4x5, .f32⟩
  | .hbm, ⟨7, _⟩ => ⟨S4x5, .f32⟩
  | .hbm, ⟨8, _⟩ => ⟨S_, .f32⟩
  | .hbm, ⟨9, _⟩ => ⟨S4x5, .f32⟩
  | .hbm, ⟨10, _⟩ => ⟨S4x5, .f32⟩
  | .hbm, ⟨11, _⟩ => ⟨S4x5, .f32⟩
  | .hbm, ⟨12, _⟩ => ⟨S_, .f32⟩
  | .hbm, ⟨13, _⟩ => ⟨S4x5, .f32⟩
  | .hbm, ⟨14, _⟩ => ⟨S4x5, .i1⟩
  | .hbm, ⟨15, _⟩ => ⟨S_, .f32⟩
  | .hbm, ⟨16, _⟩ => ⟨S_, .f32⟩
  | .hbm, ⟨17, _⟩ => ⟨S4x5, .f32⟩
  | .hbm, ⟨18, _⟩ => ⟨S4x5, .f32⟩
  | .hbm, ⟨19, _⟩ => ⟨S_, .f32⟩
  | .hbm, ⟨20, _⟩ => ⟨S_, .f32⟩
  | .hbm, ⟨21, _⟩ => ⟨S4x5, .f32⟩
  | .hbm, ⟨22, _⟩ => ⟨S4x5, .f32⟩
  | .hbm, ⟨23, _⟩ => ⟨S4x5, .f32⟩
  | .hbm, ⟨24, _⟩ => ⟨S_, .f32⟩
  | .hbm, ⟨25, _⟩ => ⟨S5, .f32⟩
  | .hbm, ⟨26, _⟩ => ⟨S_, .f32⟩
  | .hbm, ⟨27, _⟩ => ⟨S5, .f32⟩
  | .hbm, ⟨28, _⟩ => ⟨S5, .f32⟩
  | .local _ .vmem, ⟨0, _⟩ => ⟨S4x131072, .i32⟩
  | .local _ .vmem, ⟨1, _⟩ => ⟨S4x131072, .i32⟩
  | .local _ .vmem, ⟨2, _⟩ => ⟨S4x131072, .i32⟩
  | .local _ .vmem, ⟨3, _⟩ => ⟨S4x131072, .i32⟩
  | .local _ .vmem, ⟨4, _⟩ => ⟨S4x15, .f32⟩
  | .local _ .vmem, ⟨5, _⟩ => ⟨S4x15, .f32⟩
  | _, _ => ⟨S4x64x256x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v11 : Ref sig .tc := ⟨.hbm, 18, rfl⟩
abbrev main_cst_2 : Ref sig .tc := ⟨.hbm, 19, rfl⟩
abbrev main_call1_v0 : Ref sig .tc := ⟨.hbm, 20, rfl⟩
abbrev main_call1_v1 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v88 : BitVec 1 := Scalar.cmpi .eq arg0 c31_i32
  let v89 : BitVec 32 := Scalar.extui v88
  let c0_i32_28 : BitVec 32 := 0#32
  let v90 : BitVec 1 := Scalar.cmpi .ne v89 c0_i32_28
  v90

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x131072 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x131072 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x15 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S4x64x256x256_S4x4194304 : S4x64x256x256.ShapeCasts S4x4194304
  inb_S4x15_S4x15_0_0 : ∀ a, (![0, 0] : Fin 2 → Nat) a + S4x15.size a ≤ S4x15.size a
  h_S4x15 : 0 < S4x15.numel
  shapeCasts_S4x15_S4x15 : S4x15.ShapeCasts S4x15
  inb_S4x131072_S4x131072_0_0 : ∀ a, (![0, 0] : Fin 2 → Nat) a + S4x131072.size a ≤ S4x131072.size a
  h_S4x131072 : 0 < S4x131072.numel
  shapeCasts_S4x131072_S4x131072 : S4x131072.ShapeCasts S4x131072
  natLt_1_32 : 1 < 32
  reduces_S4x131072_S4 : S4x131072.Reduces [1] S4
  shapeCasts_S4_S4x1 : S4.ShapeCasts S4x1
  concatenates_S4x1_S4x1_S4x1_S4x1_S4x1_S4x1_S4x1_S4x1_S4x1_S4x1_S4x1_S4x1_S4x1_S4x1_S4x1_S4x15_d1 : Shape.Concatenates [S4x1, S4x1, S4x1, S4x1, S4x1, S4x1, S4x1, S4x1, S4x1, S4x1, S4x1, S4x1, S4x1, S4x1, S4x1] S4x15 1
  slices_S4x15_S4x5_0_0 : S4x15.Slices ![0, 0] S4x5
  slices_S4x15_S4x5_0_5 : S4x15.Slices ![0, 5] S4x5
  slices_S4x15_S4x5_0_10 : S4x15.Slices ![0, 10] S4x5
  bcast_S_S4x5 : S_.BroadcastsInDim S4x5 (![] : Fin 0 → Fin S4x5.rank)
  reducesTo_S4x5_S5_d0 : S4x5.ReducesTo [0] S5
  h_S_ : 0 < S_.numel
  bcast_S_S5 : S_.BroadcastsInDim S5 (![] : Fin 0 → Fin S5.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x131072.size a ≤ S4x4194304.size a
  hwx0_0 : ∀ i : grid0.Coords, EltTy.bits .i32 = 32 ∨ (Rect.block (s := S4x4194304) S4x131072.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x131072.size a ≤ S4x4194304.size a
  hwx0_1 : ∀ i : grid0.Coords, EltTy.bits .i32 = 32 ∨ (Rect.block (s := S4x4194304) S4x131072.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x15.size a ≤ S4x15.size a
  hwx0_2 : ∀ i : grid0.Coords, EltTy.bits .f32 = 32 ∨ (Rect.block (s := S4x15) S4x15.size (cc0_transform_2 i) (hinb0_2 i)).WholeWords (EltTy.packing .f32)

variable [Facts₀]

abbrev win0_0 : Pipeline.Window sig grid0 :=
  Pipeline.Window.ofSpec (Memref.whole main_v0) S4x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x131072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x15.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x64x256x256 : Shape := ⟨4, ![4, 64, 256, 256]⟩
abbrev S4x4194304 : Shape := ⟨2, ![4, 4194304]⟩
abbrev S_ : Shape := ⟨0, ![]⟩
abbrev S4 : Shape := ⟨1, ![4]⟩
abbrev S4x1 : Shape := ⟨2, ![4, 1]⟩
abbrev S16777216 : Shape := ⟨1, ![16777216]⟩
abbrev S20 : Shape := ⟨1, ![20]⟩
abbrev S16777216x1 : Shape := ⟨2, ![16777216, 1]⟩
abbrev S4x5 : Shape := ⟨2, ![4, 5]⟩
abbrev S5 : Shape := ⟨1, ![5]⟩

abbrev nBuf : Space → Nat
  | .hbm => 71
  | .vmem => 0
  | .smem => 0
  | _ => 0

abbrev bufTy : (tb : Table) → Fin (tcTables nBuf tb) → BufTy
  | .hbm, ⟨0, _⟩ => ⟨S4x64x256x256, .i32⟩
  | .hbm, ⟨1, _⟩ => ⟨S4x64x256x256, .i32⟩
  | .hbm, ⟨2, _⟩ => ⟨S4x4194304, .i32⟩
  | .hbm, ⟨3, _⟩ => ⟨S4x4194304, .i32⟩
  | .hbm, ⟨4, _⟩ => ⟨S_, .f32⟩
  | .hbm, ⟨5, _⟩ => ⟨S4x4194304, .f32⟩
  | .hbm, ⟨6, _⟩ => ⟨S4, .i32⟩
  | .hbm, ⟨7, _⟩ => ⟨S4x1, .i32⟩
  | .hbm, ⟨8, _⟩ => ⟨S_, .i32⟩
  | .hbm, ⟨9, _⟩ => ⟨S4x1, .i32⟩
  | .hbm, ⟨10, _⟩ => ⟨S4x1, .i32⟩
  | .hbm, ⟨11, _⟩ => ⟨S4x4194304, .i32⟩
  | .hbm, ⟨12, _⟩ => ⟨S4x4194304, .i32⟩
  | .hbm, ⟨13, _⟩ => ⟨S16777216, .f32⟩
  | .hbm, ⟨14, _⟩ => ⟨S16777216, .i32⟩
  | .hbm, ⟨15, _⟩ => ⟨S_, .f32⟩
  | .hbm, ⟨16, _⟩ => ⟨S20, .f32⟩
  | .hbm, ⟨17, _⟩ => ⟨S16777216x1, .i32⟩
  | .hbm, ⟨18, _⟩ => ⟨S20, .f32⟩
  | .hbm, ⟨19, _⟩ => ⟨S4x5, .f32⟩
  | .hbm, ⟨20, _⟩ => ⟨S4, .i32⟩
  | .hbm, ⟨21, _⟩ => ⟨S4x1, .i32⟩
  | .hbm, ⟨22, _⟩ => ⟨S_, .i32⟩
  | .hbm, ⟨23, _⟩ => ⟨S4x1, .i32⟩
  | .hbm, ⟨24, _⟩ => ⟨S4x1, .i32⟩
  | .hbm, ⟨25, _⟩ => ⟨S4x4194304, .i32⟩
  | .hbm, ⟨26, _⟩ => ⟨S4x4194304, .i32⟩
  | .hbm, ⟨27, _⟩ => ⟨S16777216, .f32⟩
  | .hbm, ⟨28, _⟩ => ⟨S16777216, .i32⟩
  | .hbm, ⟨29, _⟩ => ⟨S_, .f32⟩
  | .hbm, ⟨30, _⟩ => ⟨S20, .f32⟩
  | .hbm, ⟨31, _⟩ => ⟨S16777216x1, .i32⟩
  | .hbm, ⟨32, _⟩ => ⟨S20, .f32⟩
  | .hbm, ⟨33, _⟩ => ⟨S4x5, .f32⟩
  | .hbm, ⟨34, _⟩ => ⟨S4x4194304, .i1⟩
  | .hbm, ⟨35, _⟩ => ⟨S4x4194304, .f32⟩
  | .hbm, ⟨36, _⟩ => ⟨S4, .i32⟩
  | .hbm, ⟨37, _⟩ => ⟨S4x1, .i32⟩
  | .hbm, ⟨38, _⟩ => ⟨S_, .i32⟩
  | .hbm, ⟨39, _⟩ => ⟨S4x1, .i32⟩
  | .hbm, ⟨40, _⟩ => ⟨S4x1, .i32⟩
  | .hbm, ⟨41, _⟩ => ⟨S4x4194304, .i32⟩
  | .hbm, ⟨42, _⟩ => ⟨S4x4194304, .i32⟩
  | .hbm, ⟨43, _⟩ => ⟨S16777216, .f32⟩
  | .hbm, ⟨44, _⟩ => ⟨S16777216, .i32⟩
  | .hbm, ⟨45, _⟩ => ⟨S_, .f32⟩
  | .hbm, ⟨46, _⟩ => ⟨S20, .f32⟩
  | .hbm, ⟨47, _⟩ => ⟨S16777216x1, .i32⟩
  | .hbm, ⟨48, _⟩ => ⟨S20, .f32⟩
  | .hbm, ⟨49, _⟩ => ⟨S4x5, .f32⟩
  | .hbm, ⟨50, _⟩ => ⟨S_, .f32⟩
  | .hbm, ⟨51, _⟩ => ⟨S4x5, .f32⟩
  | .hbm, ⟨52, _⟩ => ⟨S4x5, .f32⟩
  | .hbm, ⟨53, _⟩ => ⟨S4x5, .f32⟩
  | .hbm, ⟨54, _⟩ => ⟨S_, .f32⟩
  | .hbm, ⟨55, _⟩ => ⟨S4x5, .f32⟩
  | .hbm, ⟨56, _⟩ => ⟨S4x5, .i1⟩
  | .hbm, ⟨57, _⟩ => ⟨S_, .f32⟩
  | .hbm, ⟨58, _⟩ => ⟨S_, .f32⟩
  | .hbm, ⟨59, _⟩ => ⟨S4x5, .f32⟩
  | .hbm, ⟨60, _⟩ => ⟨S4x5, .f32⟩
  | .hbm, ⟨61, _⟩ => ⟨S_, .f32⟩
  | .hbm, ⟨62, _⟩ => ⟨S_, .f32⟩
  | .hbm, ⟨63, _⟩ => ⟨S4x5, .f32⟩
  | .hbm, ⟨64, _⟩ => ⟨S4x5, .f32⟩
  | .hbm, ⟨65, _⟩ => ⟨S4x5, .f32⟩
  | .hbm, ⟨66, _⟩ => ⟨S_, .f32⟩
  | .hbm, ⟨67, _⟩ => ⟨S5, .f32⟩
  | .hbm, ⟨68, _⟩ => ⟨S_, .f32⟩
  | .hbm, ⟨69, _⟩ => ⟨S5, .f32⟩
  | .hbm, ⟨70, _⟩ => ⟨S5, .f32⟩
  | _, _ => ⟨S4x64x256x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_call0_v0 : Ref sig .tc := ⟨.hbm, 58, rfl⟩
abbrev main_call0_v1 : Ref sig .tc := ⟨.hbm, 59, rfl⟩
abbrev main_v46 : Ref sig .tc := ⟨.hbm, 60, rfl⟩
abbrev main_cst_8 : Ref sig .tc := ⟨.hbm, 61, rfl⟩
abbrev main_call1_v0 : Ref sig .tc := ⟨.hbm, 62, rfl⟩
abbrev main_call1_v1 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]

class Facts₀ : Prop where
  shapeCasts_S4x64x256x256_S4x4194304 : S4x64x256x256.ShapeCasts S4x4194304
  bcast_S_S4x4194304 : S_.BroadcastsInDim S4x4194304 (![] : Fin 0 → Fin S4x4194304.rank)
  bcast_S4_S4x1_0 : S4.BroadcastsInDim S4x1 (![0] : Fin 1 → Fin S4x1.rank)
  bcast_S_S4x1 : S_.BroadcastsInDim S4x1 (![] : Fin 0 → Fin S4x1.rank)
  bcast_S4x1_S4x4194304_0_1 : S4x1.BroadcastsInDim S4x4194304 (![0, 1] : Fin 2 → Fin S4x4194304.rank)
  shapeCasts_S4x4194304_S16777216 : S4x4194304.ShapeCasts S16777216
  bcast_S_S20 : S_.BroadcastsInDim S20 (![] : Fin 0 → Fin S20.rank)
  bcast_S16777216_S16777216x1_0 : S16777216.BroadcastsInDim S16777216x1 (![0] : Fin 1 → Fin S16777216x1.rank)
  shapeCasts_S20_S4x5 : S20.ShapeCasts S4x5
  bcast_S_S4x5 : S_.BroadcastsInDim S4x5 (![] : Fin 0 → Fin S4x5.rank)
  reducesTo_S4x5_S5_d0 : S4x5.ReducesTo [0] S5
  h_S_ : 0 < S_.numel
  bcast_S_S5 : S_.BroadcastsInDim S5 (![] : Fin 0 → Fin S5.rank)
  scatter_S20_S16777216x1_S16777216_n_0_0_1_wf : ScatterDims.WF S20 S16777216x1 S16777216 [] [0] [0] 1

variable [Facts₀]

def scatter_S20_S16777216x1_S16777216_n_0_0_1 : ScatterDims S20 S16777216x1 S16777216 where
  updateWindowDims := []
  insertedWindowDims := [0]
  scatterDimsToOperandDims := [0]
  indexVectorDim := 1
  wf := scatter_S20_S16777216x1_S16777216_n_0_0_1_wf

class Facts : Prop extends Facts₀ where

variable [Facts]
-- ==== Proof.Counts.lean ====
/-
  Per-class label counts and the Dice score computed from them.

  A label volume is read as four rows of 4194304 voxels.  For a row b and a column k < 15 the counter (b, k) is the
  number of voxels of the row whose predicted label is k (columns 0-4), whose target label is k - 5 (columns 5-9), or
  whose predicted AND target labels are both k - 10 (columns 10-14): a sum of zeros and ones over the row.  A row of
  4194304 voxels is 32 consecutive chunks of 131072 voxels, so a counter is the sum over the chunks of the chunk's own
  count.  From the three 4 x 5 tables (predicted, target, both) the score of class c is the mean over the four rows of
  2 * both / (predicted + target), read as 1 / 1 where predicted + target = 0.
-/
import Idealize.ShloMosaic.PureOps.Ideal
import Idealize.ShloMosaic.PureOps.Contract
import Idealize.ShloMosaic.Lib.ValueIdx

noncomputable section

open scoped BigOperators

namespace Cert.Dice

open Idealize.ShloMosaic Idealize.ShloMosaic.ValueIdx

/-- Four rows of voxel labels. -/
abbrev SLab : Shape := ⟨2, ![4, 4194304]⟩
/-- One chunk of each row. -/
abbrev SBlk : Shape := ⟨2, ![4, 131072]⟩
/-- The fifteen counters of each row. -/
abbrev SAcc : Shape := ⟨2, ![4, 15]⟩
/-- One table of per-class counts. -/
abbrev SCnt : Shape := ⟨2, ![4, 5]⟩
/-- The per-class scores. -/
abbrev SOut : Shape := ⟨1, ![5]⟩
abbrev S0 : Shape := ⟨0, ![]⟩

/-- 1 where the label is the class, 0 elsewhere. -/
def hit (x : BitVec 32) (c : ℕ) : EReal := if x = BitVec.ofNat 32 c then 1 else 0

/-- What one voxel with predicted label p and target label t adds to column k of its row's counters. -/
def entry (k : ℕ) (p t : BitVec 32) : EReal :=
  if k < 5 then hit p k else if k < 10 then hit t (k - 5) else hit p (k - 10) * hit t (k - 10)

/-- Column k of row b counted over one chunk. -/
def chunkSum (x0 x1 : IVec SBlk 32) (b : Fin 4) (k : Fin 15) : EReal :=
  ∑ j : Fin 131072, entry k.val (x0 (ix2 b j)) (x1 (ix2 b j))

/-- Column k of row b counted over the whole row. -/
def total (P T : IVec SLab 32) (b : Fin 4) (k : Fin 15) : EReal :=
  ∑ n : Fin 4194304, entry k.val (P (ix2 b n)) (T (ix2 b n))

/-- Voxel j of chunk s of a row. -/
def voxel (s : Fin 32) (j : Fin 131072) : Fin 4194304 := ⟨s.val * 131072 + j.val, by have := s.isLt; have := j.isLt; omega⟩

/-- Chunk s of the rows. -/
def chunk (X : IVec SLab 32) (s : Fin 32) : IVec SBlk 32 := fun y => X (ix2 (y 0) (voxel s (y 1)))

/-- A row's counter is the sum of its 32 chunks' counters. -/
theorem total_eq_sum_chunks (P T : IVec SLab 32) (b : Fin 4) (k : Fin 15) :
    total P T b k = ∑ s : Fin 32, chunkSum (chunk P s) (chunk T s) b k := by
  unfold total chunkSum
  rw [← Finset.sum_product' (Finset.univ : Finset (Fin 32)) (Finset.univ : Finset (Fin 131072))
    (fun s j => entry k.val (chunk P s (ix2 b j)) (chunk T s (ix2 b j)))]
  symm
  refine Finset.sum_nbij' (fun sj : Fin 32 × Fin 131072 => voxel sj.1 sj.2)
    (fun n : Fin 4194304 => (⟨n.val / 131072, by have := n.isLt; omega⟩, ⟨n.val % 131072, Nat.mod_lt _ (by norm_num)⟩)) ?_ ?_ ?_ ?_ ?_
  · intro _ _; exact Finset.mem_univ _
  · intro _ _; exact Finset.mem_univ _
  · rintro ⟨s, j⟩ _
    have hs := s.isLt; have hj := j.isLt
    refine Prod.ext (Fin.ext ?_) (Fin.ext ?_)
    · show (s.val * 131072 + j.val) / 131072 = s.val; omega
    · show (s.val * 131072 + j.val) % 131072 = j.val; omega
  · intro n _
    refine Fin.ext ?_
    show n.val / 131072 * 131072 + n.val % 131072 = n.val
    omega
  · rintro ⟨s, j⟩ _
    rfl

/-- The score of each class from the three tables of counts, with the host operations that compute it:
    2 * both / (predicted + target), read as 1 / 1 where the denominator is 0, averaged over the four rows. -/
def dice (hb : S0.BroadcastsInDim SCnt (![] : Fin 0 → Fin SCnt.rank)) (hr : SCnt.ReducesTo [0] SOut) (h0 : 0 < S0.numel)
    (hb5 : S0.BroadcastsInDim SOut (![] : Fin 0 → Fin SOut.rank))
    (pred tar both : FVec Ideal SCnt .f32) : FVec Ideal SOut .f32 :=
  Host.divf
    (Host.reduceAdd
      (Host.divf
        (select (cmpf (F := Ideal) .oeq (addf pred tar) (broadcastInDim SCnt ![] hb (constant (F := Ideal) S0 .f32 0x00000000#32)))
          (broadcastInDim SCnt ![] hb (id (constant (F := Ideal) S0 .f32 0x3F800000#32)))
          (mulf (broadcastInDim SCnt ![] hb (constant (F := Ideal) S0 .f32 0x40000000#32)) both))
        (select (cmpf (F := Ideal) .oeq (addf pred tar) (broadcastInDim SCnt ![] hb (constant (F := Ideal) S0 .f32 0x00000000#32)))
          (broadcastInDim SCnt ![] hb (id (constant (F := Ideal) S0 .f32 0x3F800000#32)))
          (addf pred tar)))
      (constant (F := Ideal) S0 .f32 0x00000000#32) hr h0)
    (broadcastInDim SOut ![] hb5 (constant (F := Ideal) S0 .f32 0x40800000#32))

/-- The three tables read off the fifteen counters. -/
def predOf (A : SAcc.Idx → EReal) : FVec Ideal SCnt .f32 := fun i => A (ix2 (⟨(i 0).val, (i 0).isLt⟩ : Fin 4) (⟨(i 1).val, by have : (i 1).val < 5 := (i 1).isLt; omega⟩ : Fin 15))
def tarOf (A : SAcc.Idx → EReal) : FVec Ideal SCnt .f32 := fun i => A (ix2 (⟨(i 0).val, (i 0).isLt⟩ : Fin 4) (⟨(i 1).val + 5, by have : (i 1).val < 5 := (i 1).isLt; omega⟩ : Fin 15))
def bothOf (A : SAcc.Idx → EReal) : FVec Ideal SCnt .f32 := fun i => A (ix2 (⟨(i 0).val, (i 0).isLt⟩ : Fin 4) (⟨(i 1).val + 10, by have : (i 1).val < 5 := (i 1).isLt; omega⟩ : Fin 15))

/-- All fifteen counters of every row, as one table. -/
def counters (P T : IVec SLab 32) : SAcc.Idx → EReal := fun i => total P T ⟨(i 0).val, (i 0).isLt⟩ ⟨(i 1).val, (i 1).isLt⟩

end Cert.Dice

end
-- ==== Proof.LibScatterGather.lean ====
/-
  Three host operations read at one element, for any extents: a gather of whole rows of a matrix at a column of row
  numbers, and an accumulating scatter into a vector or into the rows of a matrix at a column of positions.

  A gather clamps the row number it reads (signed) into the matrix; a scatter reads the position signed and does NOT
  clamp it: an update whose position is outside the target is dropped.  At the exact (extended-real) instance the
  accumulating scatter is the target's entry plus the sum of the updates that land on it.
-/
import Idealize.ShloMosaic.PureOps.Ideal
import Idealize.ShloMosaic.PureOps.Contract
import Idealize.ShloMosaic.Lib.ValueIdx
import Idealize.ShloMosaic.Lib.StableHlo.Predicate

noncomputable section

open scoped BigOperators

namespace Cert.LibSG

open Idealize.ShloMosaic Idealize.ShloMosaic.ValueIdx Idealize.ShloMosaic.StableHlo.Predicate

/-- Rows gathered from an [N × D] matrix at an [n × 1] column of row numbers: entry (p, f) of the result is the matrix's
    entry (row p's number read signed and clamped into [0, N − 1], f). -/
theorem gather_rows {α : Type} {N D n w : ℕ} (d : GatherDims ⟨2, ![N, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![n, 1]⟩ w) (p : Fin n) (f : Fin D) (hN : 0 < N) :
    Host.gather d x idx (ix2 p f) = x (ix2 (⟨min (idx (ixP p)).toInt.toNat (N - 1), by omega⟩ : Fin N) f) := by
  obtain ⟨od, cd, ob, sb, sm, iv, ss, wf⟩ := d
  dsimp only at hoff hcoll hob hsb hsim hivd hss
  subst hoff hcoll hob hsb hsim hivd hss
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (c : Fin 1), (GatherDims.mk (s := ⟨2, ![N, D]⟩) (si := ⟨2, ![n, 1]⟩) (t := ⟨2, ![n, D]⟩) [1] [0] [] [] [0] 1 ![1, D] wf).siIdx (ix2 p f) c = ixP p := by
      intro c
      funext b; refine Fin.ext ?_
      match b with
      | ⟨0, _⟩ => rfl
      | ⟨1, _⟩ => exact Nat.lt_one_iff.mp c.isLt
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (show (1 : Fin 2) ∉ [0] by decide)]
    simp only [Nat.zero_add]
    rfl

/-- An update lands on operand index i exactly when, on every axis, its start plus its window coordinate is i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · next h =>
    constructor
    · intro e a
      have e' := congrArg (fun g : s.Idx => (g a).val) (Option.some.inj e)
      simp only at e'
      have := h a
      omega
    · intro e
      congr 1
      funext a
      refine Fin.ext ?_
      have := e a
      simp only
      omega
  · next h =>
    constructor
    · intro e; cases e
    · intro e
      exfalso
      apply h
      intro a
      have := e a
      have := (i a).isLt
      omega

/-- An accumulating scatter into an [N] vector at an [n × 1] column of positions, at the exact instance: entry i is the
    target's entry plus the sum of the updates whose position, read signed, is i. -/
theorem scatterAdd_flat {N n w : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : FVec Ideal ⟨1, ![N]⟩ .f32) (idx : IVec ⟨2, ![n, 1]⟩ w) (upd : FVec Ideal ⟨1, ![n]⟩ .f32) (i : Fin N) :
    Host.scatterAdd (F := Ideal) d x idx upd (ix1 i)
      = x (ix1 i) + ∑ e ∈ Finset.univ.filter (fun e : Fin n => (idx (ixP e)).toInt = (i.val : ℤ)), upd (ix1 e) := by
  obtain ⟨uw, iw, sd, iv, wf⟩ := d
  dsimp only at huw hiw hsd hivd
  subst huw hiw hsd hivd
  have hstart : ∀ j : (⟨1, ![n]⟩ : Shape).Idx,
      (ScatterDims.mk (s := ⟨1, ![N]⟩) (si := ⟨2, ![n, 1]⟩) (u := ⟨1, ![n]⟩) [] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hwin : ∀ j : (⟨1, ![n]⟩ : Shape).Idx,
      (ScatterDims.mk (s := ⟨1, ![N]⟩) (si := ⟨2, ![n, 1]⟩) (u := ⟨1, ![n]⟩) [] [0] [0] 1 wf).window j 0 = 0 := by
    intro j
    unfold ScatterDims.window
    exact dif_neg (show (0 : Fin 1) ∉ (List.finRange 1).filter (fun a => a ∉ [(0 : Fin 1)]) by decide)
  have hiff : ∀ j : (⟨1, ![n]⟩ : Shape).Idx,
      (ScatterDims.mk (s := ⟨1, ![N]⟩) (si := ⟨2, ![n, 1]⟩) (u := ⟨1, ![n]⟩) [] [0] [0] 1 wf).resultIdx? j idx = some (ix1 i)
        ↔ (idx (ixP (j 0))).toInt = (i.val : ℤ) := by
    intro j
    rw [resultIdx?_eq_some_iff, Fin.forall_fin_one, hstart, hwin]
    simp
  show x (ix1 i) + _ = _
  congr 1
  refine Finset.sum_nbij' (fun j => j 0) (fun e => ix1 e) ?_ ?_ ?_ ?_ ?_
  · intro j hj
    exact Finset.mem_filter.2 ⟨Finset.mem_univ _, (hiff j).1 (Finset.mem_filter.1 hj).2⟩
  · intro e he
    exact Finset.mem_filter.2 ⟨Finset.mem_univ _, (hiff (ix1 e)).2 (Finset.mem_filter.1 he).2⟩
  · intro j _
    exact (eq_ix1 j).symm
  · intro e _
    rfl
  · intro j _
    exact congrArg upd (eq_ix1 j)

/-- An accumulating scatter of [n × D] rows into the rows of an [N × D] matrix at an [n × 1] column of row positions, at
    the exact instance: entry (i, f) is the target's entry plus the sum, over the update rows whose position read signed
    is i, of their entry f. -/
theorem scatterAdd_rows {N D n w : ℕ} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : FVec Ideal ⟨2, ![N, D]⟩ .f32) (idx : IVec ⟨2, ![n, 1]⟩ w) (upd : FVec Ideal ⟨2, ![n, D]⟩ .f32) (i : Fin N) (f : Fin D) :
    Host.scatterAdd (F := Ideal) d x idx upd (ix2 i f)
      = x (ix2 i f) + ∑ e ∈ Finset.univ.filter (fun e : Fin n => (idx (ixP e)).toInt = (i.val : ℤ)), upd (ix2 e f) := by
  obtain ⟨uw, iw, sd, iv, wf⟩ := d
  dsimp only at huw hiw hsd hivd
  subst huw hiw hsd hivd
  have hstart0 : ∀ j : (⟨2, ![n, D]⟩ : Shape).Idx,
      (ScatterDims.mk (s := ⟨2, ![N, D]⟩) (si := ⟨2, ![n, 1]⟩) (u := ⟨2, ![n, D]⟩) [1] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hstart1 : ∀ j : (⟨2, ![n, D]⟩ : Shape).Idx,
      (ScatterDims.mk (s := ⟨2, ![N, D]⟩) (si := ⟨2, ![n, 1]⟩) (u := ⟨2, ![n, D]⟩) [1] [0] [0] 1 wf).start j idx 1 = 0 := by
    intro j
    unfold ScatterDims.start
    rw [dif_neg (show (1 : Fin 2) ∉ [0] by decide)]
  have hwin0 : ∀ j : (⟨2, ![n, D]⟩ : Shape).Idx,
      (ScatterDims.mk (s := ⟨2, ![N, D]⟩) (si := ⟨2, ![n, 1]⟩) (u := ⟨2, ![n, D]⟩) [1] [0] [0] 1 wf).window j 0 = 0 := by
    intro j
    unfold ScatterDims.window
    exact dif_neg (show (0 : Fin 2) ∉ (List.finRange 2).filter (fun a => a ∉ [(0 : Fin 2)]) by decide)
  have hwin1 : ∀ j : (⟨2, ![n, D]⟩ : Shape).Idx,
      (ScatterDims.mk (s := ⟨2, ![N, D]⟩) (si := ⟨2, ![n, 1]⟩) (u := ⟨2, ![n, D]⟩) [1] [0] [0] 1 wf).window j 1 = (j 1).val := by
    intro j
    unfold ScatterDims.window
    exact (dif_pos (show (1 : Fin 2) ∈ (List.finRange 2).filter (fun a => a ∉ [(0 : Fin 2)]) by decide)).trans rfl
  have hiff : ∀ j : (⟨2, ![n, D]⟩ : Shape).Idx,
      (ScatterDims.mk (s := ⟨2, ![N, D]⟩) (si := ⟨2, ![n, 1]⟩) (u := ⟨2, ![n, D]⟩) [1] [0] [0] 1 wf).resultIdx? j idx = some (ix2 i f)
        ↔ (idx (ixP (j 0))).toInt = (i.val : ℤ) ∧ j 1 = f := by
    intro j
    rw [resultIdx?_eq_some_iff, Fin.forall_fin_two, hstart0, hwin0, hstart1, hwin1]
    show (idx (ixP (j 0))).toInt + ((0 : ℕ) : ℤ) = (i.val : ℤ) ∧ (0 : ℤ) + ((j 1).val : ℤ) = (f.val : ℤ) ↔ _
    constructor
    · rintro ⟨h0, h1⟩
      exact ⟨by omega, Fin.ext (by omega)⟩
    · rintro ⟨h0, h1⟩
      subst h1
      exact ⟨by omega, by omega⟩
  show x (ix2 i f) + _ = _
  congr 1
  refine Finset.sum_nbij' (fun j => j 0) (fun e => ix2 e f) ?_ ?_ ?_ ?_ ?_
  · intro j hj
    exact Finset.mem_filter.2 ⟨Finset.mem_univ _, ((hiff j).1 (Finset.mem_filter.1 hj).2).1⟩
  · intro e he
    exact Finset.mem_filter.2 ⟨Finset.mem_univ _, (hiff (ix2 e f)).2 ⟨(Finset.mem_filter.1 he).2, rfl⟩⟩
  · intro j hj
    have h1 := ((hiff j).1 (Finset.mem_filter.1 hj).2).2
    rw [← h1]
    exact (eq_ix2 j).symm
  · intro e _
    rfl
  · intro j hj
    have h1 := ((hiff j).1 (Finset.mem_filter.1 hj).2).2
    rw [← h1]
    exact congrArg upd (eq_ix2 j)

end Cert.LibSG

end
-- ==== Proof.RefCounts.lean ====
/-
  The reference's result as the Dice score of the per-class counts.

  The reference counts by scattering: voxel (b, n) adds its weight to segment label + 5 b of twenty.  For labels in
  [0, 5) the segment 5 b + c receives exactly the voxels of row b with label c, so the three scattered tables are the
  per-row counts of predicted = c, of target = c, and, the weight being 1 where predicted = target, of both = c.
-/
import proofs.«404026_j58909771432702_2_alg».proof.Proof.RefRead
import proofs.«404026_j58909771432702_2_alg».proof.Proof.Counts
import proofs.«404026_j58909771432702_2_alg».proof.Proof.LibScatterGather

noncomputable section

open scoped BigOperators

namespace Cert.Dice

open Idealize.ShloMosaic Idealize.ShloMosaic.ValueIdx Cert.ReferenceIdeal Cert.ReferenceIdeal.Gen Cert.ReferenceIdeal.ReadP

/-- Every label of the rows is one of the five classes. -/
def InRange (X : IVec SLab 32) : Prop := ∀ i, 0 ≤ (X i).toInt ∧ (X i).toInt < 5

open Idealize.ShloMosaic.StableHlo.Predicate (ixP)

/-! ## Words -/

/-- For a label x in [0, 5) and rows r, b below 4, the word x + 5 r read signed is 5 b + c exactly when r = b and x = c:
    nothing wraps, and 5 b + c determines b and c. -/
theorem id_eq_iff (x : BitVec 32) (hx : 0 ≤ x.toInt ∧ x.toInt < 5) (r b : Fin 4) (c : Fin 5) :
    (x + BitVec.ofNat 32 r.val * 5#32).toInt = ((b.val * 5 + c.val : ℕ) : ℤ) ↔ r = b ∧ x = BitVec.ofNat 32 c.val := by
  have hr := r.isLt; have hb := b.isLt; have hc := c.isLt
  obtain ⟨hx0, hx5⟩ := hx
  have hxn : x.toNat < 5 := by
    rw [BitVec.toInt_eq_toNat_cond] at hx0 hx5
    have := x.isLt
    split at hx0 <;> omega
  have hval : (x + BitVec.ofNat 32 r.val * 5#32).toNat = x.toNat + r.val * 5 := by
    rw [BitVec.toNat_add, BitVec.toNat_mul, BitVec.toNat_ofNat]
    show (x.toNat + r.val % 2 ^ 32 * 5 % 2 ^ 32) % 2 ^ 32 = _
    omega
  have hint : (x + BitVec.ofNat 32 r.val * 5#32).toInt = ((x.toNat + r.val * 5 : ℕ) : ℤ) := by
    rw [BitVec.toInt_eq_toNat_cond, hval, if_pos (by omega)]
  rw [hint]
  constructor
  · intro h
    have h' : x.toNat + r.val * 5 = b.val * 5 + c.val := by exact_mod_cast h
    refine ⟨Fin.ext (by omega), BitVec.eq_of_toNat_eq ?_⟩
    rw [BitVec.toNat_ofNat]
    omega
  · rintro ⟨rfl, rfl⟩
    rw [BitVec.toNat_ofNat]
    have : c.val % 2 ^ 32 = c.val := by omega
    rw [this]
    push_cast
    ring

/-- The single-precision pattern of one is the extended real one. -/
theorem one_f32 : Ideal.ofBits .f32 0x3F800000#32 = 1 := by
  rw [show (1 : EReal) = ((1 : ℝ) : EReal) by norm_cast]
  simp [Ideal.ofBits, Ideal.ieee, -EReal.coe_mul]; norm_num

/-- The one-bit equality test converted to a float is 1 where the words are equal and 0 elsewhere. -/
theorem bit_weight (p t : BitVec 32) :
    FloatOps.uitofp (F := Ideal) .f32 (IntOp.cmpi .eq p t) = if p = t then 1 else 0 := by
  show (((BitVec.ofBool (p == t)).toNat : ℝ) : EReal) = _
  by_cases h : p = t
  · simp [h]
  · simp [h]

/-! ## Flat positions: 16777216 = 4 rows of 4194304 voxels -/

/-- The row of a flat position. -/
def rowOf (e : Fin 16777216) : Fin 4 := ⟨e.val / 4194304, by have := e.isLt; omega⟩
/-- The voxel of a flat position within its row. -/
def voxOf (e : Fin 16777216) : Fin 4194304 := ⟨e.val % 4194304, Nat.mod_lt _ (by norm_num)⟩
/-- The flat position of voxel n of row b. -/
def flat (b : Fin 4) (n : Fin 4194304) : Fin 16777216 :=
  ⟨b.val * 4194304 + n.val, by have := b.isLt; have := n.isLt; omega⟩

theorem rowOf_flat (b : Fin 4) (n : Fin 4194304) : rowOf (flat b n) = b :=
  Fin.ext (by show (b.val * 4194304 + n.val) / 4194304 = b.val; have := n.isLt; omega)
theorem voxOf_flat (b : Fin 4) (n : Fin 4194304) : voxOf (flat b n) = n :=
  Fin.ext (by show (b.val * 4194304 + n.val) % 4194304 = n.val; have := n.isLt; omega)
theorem flat_rowOf_voxOf (e : Fin 16777216) : flat (rowOf e) (voxOf e) = e :=
  Fin.ext (by show e.val / 4194304 * 4194304 + e.val % 4194304 = e.val; omega)

/-! ## One segment of the scatter -/

/-- Scattering weights w into twenty zero segments at ids = label + 5 row: segment 5 b + c is the sum over row b of the
    weights of the voxels labelled c. -/
theorem scatter_rows (X : IVec SLab 32) (hX : InRange X) (tgt : FVec Ideal S20 .f32) (idx : IVec S16777216x1 32)
    (upd : FVec Ideal S16777216 .f32) (w : SLab.Idx → EReal)
    (htgt : ∀ i, tgt i = 0)
    (hidx : ∀ e : Fin 16777216, idx (ixP e) = X (ix2 (rowOf e) (voxOf e)) + BitVec.ofNat 32 (rowOf e).val * 5#32)
    (hupd : ∀ e : Fin 16777216, upd (ix1 e) = w (ix2 (rowOf e) (voxOf e)))
    (b : Fin 4) (c : Fin 5) (h : b.val * 5 + c.val < 20) :
    Host.scatterAdd (F := Ideal) scatter_S20_S16777216x1_S16777216_n_0_0_1 tgt idx upd (ix1 (⟨b.val * 5 + c.val, h⟩ : Fin 20))
      = ∑ n : Fin 4194304, if X (ix2 b n) = BitVec.ofNat 32 c.val then w (ix2 b n) else 0 := by
  rw [Cert.LibSG.scatterAdd_flat _ rfl rfl rfl rfl, htgt, zero_add, ← Finset.sum_filter]
  have key : ∀ e : Fin 16777216, (idx (ixP e)).toInt = (((⟨b.val * 5 + c.val, h⟩ : Fin 20).val : ℕ) : ℤ)
      ↔ rowOf e = b ∧ X (ix2 (rowOf e) (voxOf e)) = BitVec.ofNat 32 c.val := by
    intro e
    rw [hidx]
    exact id_eq_iff _ (hX _) (rowOf e) b c
  refine Finset.sum_nbij' (fun e => voxOf e) (fun n => flat b n) ?_ ?_ ?_ ?_ ?_
  · intro e he
    obtain ⟨hr, hx⟩ := (key e).1 (Finset.mem_filter.1 he).2
    rw [hr] at hx
    exact Finset.mem_filter.2 ⟨Finset.mem_univ _, hx⟩
  · intro n hn
    refine Finset.mem_filter.2 ⟨Finset.mem_univ _, (key _).2 ?_⟩
    rw [rowOf_flat, voxOf_flat]
    exact ⟨rfl, (Finset.mem_filter.1 hn).2⟩
  · intro e he
    obtain ⟨hr, _⟩ := (key e).1 (Finset.mem_filter.1 he).2
    show flat b (voxOf e) = e
    rw [← hr]
    exact flat_rowOf_voxOf e
  · intro n _
    exact voxOf_flat b n
  · intro e he
    obtain ⟨hr, _⟩ := (key e).1 (Finset.mem_filter.1 he).2
    show upd (ix1 e) = w (ix2 b (voxOf e))
    rw [hupd, hr]

/-! ## The scattered positions, weights and targets of the three tables -/

/-- The positions of the first scatter: the predicted label plus five times the row. -/
theorem ids_pred (x0 : IVec S4x64x256x256 32) (e : Fin 16777216) :
    val_main_v12 (F := Ideal) x0 (ixP e)
      = val_main_v0 (F := Ideal) x0 (ix2 (rowOf e) (voxOf e)) + BitVec.ofNat 32 (rowOf e).val * 5#32 := by
  rw [val_main_v12_apply, val_main_v10_apply, val_main_v8_apply, val_main_v7_apply, val_main_v6_apply,
    val_main_v5_apply, val_main_c_apply, val_main_v4_apply, val_main_v3_apply]
  have hi : idx_main_v10 (idx_main_v12 (ixP e)) = ix2 (rowOf e) (voxOf e) := by
    funext a; match a with | ⟨0, _⟩ => rfl | ⟨1, _⟩ => rfl
  rw [hi]
  generalize val_main_v0 (F := Ideal) x0 = P
  rfl

/-- The positions of the second scatter: the target label plus five times the row. -/
theorem ids_tar (x1 : IVec S4x64x256x256 32) (e : Fin 16777216) :
    val_main_v24 (F := Ideal) x1 (ixP e)
      = val_main_v1 (F := Ideal) x1 (ix2 (rowOf e) (voxOf e)) + BitVec.ofNat 32 (rowOf e).val * 5#32 := by
  rw [val_main_v24_apply, val_main_v22_apply, val_main_v20_apply, val_main_v19_apply, val_main_v18_apply,
    val_main_v17_apply, val_main_c_1_apply, val_main_v16_apply, val_main_v15_apply]
  have hi : idx_main_v22 (idx_main_v24 (ixP e)) = ix2 (rowOf e) (voxOf e) := by
    funext a; match a with | ⟨0, _⟩ => rfl | ⟨1, _⟩ => rfl
  rw [hi]
  generalize val_main_v1 (F := Ideal) x1 = T
  rfl

/-- The positions of the third scatter: the predicted label plus five times the row. -/
theorem ids_both (x0 : IVec S4x64x256x256 32) (e : Fin 16777216) :
    val_main_v38 (F := Ideal) x0 (ixP e)
      = val_main_v0 (F := Ideal) x0 (ix2 (rowOf e) (voxOf e)) + BitVec.ofNat 32 (rowOf e).val * 5#32 := by
  rw [val_main_v38_apply, val_main_v36_apply, val_main_v34_apply, val_main_v33_apply, val_main_v32_apply,
    val_main_v31_apply, val_main_c_3_apply, val_main_v30_apply, val_main_v29_apply]
  have hi : idx_main_v36 (idx_main_v38 (ixP e)) = ix2 (rowOf e) (voxOf e) := by
    funext a; match a with | ⟨0, _⟩ => rfl | ⟨1, _⟩ => rfl
  rw [hi]
  generalize val_main_v0 (F := Ideal) x0 = P
  rfl

/-- The weights of the first scatter are all one. -/
theorem upd_pred (e : Fin 16777216) : val_main_v9 (F := Ideal) (ix1 e) = 1 := by
  rw [val_main_v9_apply, val_main_v2_apply, val_main_cst_apply]
  exact one_f32

/-- The weights of the second scatter are all one. -/
theorem upd_tar (e : Fin 16777216) : val_main_v21 (F := Ideal) (ix1 e) = 1 := by
  rw [val_main_v21_apply, val_main_v2_apply, val_main_cst_apply]
  exact one_f32

/-- The weights of the third scatter: one where the predicted and target labels agree, zero elsewhere. -/
theorem upd_both (x0 x1 : IVec S4x64x256x256 32) (e : Fin 16777216) :
    val_main_v35 (F := Ideal) x0 x1 (ix1 e)
      = if val_main_v0 (F := Ideal) x0 (ix2 (rowOf e) (voxOf e)) = val_main_v1 (F := Ideal) x1 (ix2 (rowOf e) (voxOf e))
          then 1 else 0 := by
  rw [val_main_v35_apply, val_main_v28_apply, val_main_v27_apply]
  have hi : idx_main_v35 (ix1 e) = ix2 (rowOf e) (voxOf e) := by
    funext a; match a with | ⟨0, _⟩ => rfl | ⟨1, _⟩ => rfl
  rw [hi]
  exact bit_weight _ _

/-- The three scatters' targets are zero everywhere. -/
theorem tgt_pred (i : S20.Idx) : val_main_v11 (F := Ideal) i = 0 := by
  rw [val_main_v11_apply, val_main_cst_0_apply]; exact Ideal.ofBits_zero_f32
theorem tgt_tar (i : S20.Idx) : val_main_v23 (F := Ideal) i = 0 := by
  rw [val_main_v23_apply, val_main_cst_2_apply]; exact Ideal.ofBits_zero_f32
theorem tgt_both (i : S20.Idx) : val_main_v37 (F := Ideal) i = 0 := by
  rw [val_main_v37_apply, val_main_cst_4_apply]; exact Ideal.ofBits_zero_f32

/-! ## The counters read off as the three tables -/

theorem predOf_counters (P T : IVec SLab 32) (b : Fin 4) (c : Fin 5) :
    predOf (counters P T) (ix2 b c) = ∑ n : Fin 4194304, hit (P (ix2 b n)) c.val := by
  show (∑ n : Fin 4194304, entry c.val (P (ix2 b n)) (T (ix2 b n))) = _
  refine Finset.sum_congr rfl fun n _ => ?_
  unfold entry
  rw [if_pos c.isLt]

theorem tarOf_counters (P T : IVec SLab 32) (b : Fin 4) (c : Fin 5) :
    tarOf (counters P T) (ix2 b c) = ∑ n : Fin 4194304, hit (T (ix2 b n)) c.val := by
  show (∑ n : Fin 4194304, entry (c.val + 5) (P (ix2 b n)) (T (ix2 b n))) = _
  refine Finset.sum_congr rfl fun n _ => ?_
  have hc := c.isLt
  unfold entry
  rw [if_neg (by omega), if_pos (by omega), Nat.add_sub_cancel]

theorem bothOf_counters (P T : IVec SLab 32) (b : Fin 4) (c : Fin 5) :
    bothOf (counters P T) (ix2 b c) = ∑ n : Fin 4194304, hit (P (ix2 b n)) c.val * hit (T (ix2 b n)) c.val := by
  show (∑ n : Fin 4194304, entry (c.val + 10) (P (ix2 b n)) (T (ix2 b n))) = _
  refine Finset.sum_congr rfl fun n _ => ?_
  unfold entry
  rw [if_neg (by omega), if_neg (by omega), Nat.add_sub_cancel]

/-- The segment 5 b + c of the flat table is entry (b, c) of the reshaped one. -/
theorem seg_idx (b : Fin 4) (c : Fin 5) (h : b.val * 5 + c.val < 20) :
    idx_main_v14 (ix2 b c) = ix1 (⟨b.val * 5 + c.val, h⟩ : Fin 20) := by
  funext a; match a with | ⟨0, _⟩ => rfl

/-! ## The three tables -/

/-- The first scattered table is the count of each predicted class per row. -/
theorem table_pred (x0 : IVec S4x64x256x256 32) (h0 : InRange (val_main_v0 (F := Ideal) x0)) (T : IVec SLab 32) :
    val_main_v14 (F := Ideal) x0 = predOf (counters (val_main_v0 (F := Ideal) x0) T) := by
  funext i
  obtain ⟨b, c, rfl⟩ : ∃ (b : Fin 4) (c : Fin 5), i = ix2 b c := ⟨i 0, i 1, eq_ix2 i⟩
  have h : b.val * 5 + c.val < 20 := by have := b.isLt; have := c.isLt; omega
  rw [val_main_v14_apply, predOf_counters, seg_idx b c h]
  unfold val_main_v13
  refine (scatter_rows _ h0 _ _ _ (fun _ => 1) tgt_pred (ids_pred x0) upd_pred b c h).trans ?_
  rfl

/-- The second scattered table is the count of each target class per row. -/
theorem table_tar (x1 : IVec S4x64x256x256 32) (h1 : InRange (val_main_v1 (F := Ideal) x1)) (P : IVec SLab 32) :
    val_main_v26 (F := Ideal) x1 = tarOf (counters P (val_main_v1 (F := Ideal) x1)) := by
  funext i
  obtain ⟨b, c, rfl⟩ : ∃ (b : Fin 4) (c : Fin 5), i = ix2 b c := ⟨i 0, i 1, eq_ix2 i⟩
  have h : b.val * 5 + c.val < 20 := by have := b.isLt; have := c.isLt; omega
  rw [val_main_v26_apply, tarOf_counters]
  have hi : idx_main_v26 (ix2 b c) = ix1 (⟨b.val * 5 + c.val, h⟩ : Fin 20) := by
    funext a; match a with | ⟨0, _⟩ => rfl
  rw [hi]
  unfold val_main_v25
  refine (scatter_rows _ h1 _ _ _ (fun _ => 1) tgt_tar (ids_tar x1) upd_tar b c h).trans ?_
  rfl

/-- The third scattered table is the count, per row, of the voxels whose predicted and target classes are both c. -/
theorem table_both (x0 x1 : IVec S4x64x256x256 32) (h0 : InRange (val_main_v0 (F := Ideal) x0)) :
    val_main_v40 (F := Ideal) x0 x1 = bothOf (counters (val_main_v0 (F := Ideal) x0) (val_main_v1 (F := Ideal) x1)) := by
  funext i
  obtain ⟨b, c, rfl⟩ : ∃ (b : Fin 4) (c : Fin 5), i = ix2 b c := ⟨i 0, i 1, eq_ix2 i⟩
  have h : b.val * 5 + c.val < 20 := by have := b.isLt; have := c.isLt; omega
  rw [val_main_v40_apply, bothOf_counters]
  have hi : idx_main_v40 (ix2 b c) = ix1 (⟨b.val * 5 + c.val, h⟩ : Fin 20) := by
    funext a; match a with | ⟨0, _⟩ => rfl
  rw [hi]
  unfold val_main_v39
  refine (scatter_rows _ h0 _ _ _
    (fun i => if val_main_v0 (F := Ideal) x0 i = val_main_v1 (F := Ideal) x1 i then 1 else 0)
    tgt_both (ids_both x0) (upd_both x0 x1) b c h).trans ?_
  refine Finset.sum_congr rfl fun n _ => ?_
  generalize val_main_v0 (F := Ideal) x0 (ix2 b n) = p
  generalize val_main_v1 (F := Ideal) x1 (ix2 b n) = t
  unfold hit
  by_cases hp : p = BitVec.ofNat 32 c.val
  · subst hp
    by_cases ht : t = BitVec.ofNat 32 c.val
    · subst ht; simp
    · simp [ht, Ne.symm ht]
  · simp [hp]

/-! ## The tail of the program is the score of the three tables -/

theorem ref_tail (x0 x1 : IVec S4x64x256x256 32) :
    val_main_v51 (F := Ideal) x0 x1
      = dice bcast_S_S4x5 reducesTo_S4x5_S5_d0 h_S_ bcast_S_S5
          (val_main_v14 (F := Ideal) x0) (val_main_v26 (F := Ideal) x1) (val_main_v40 (F := Ideal) x0 x1) := by
  unfold val_main_v51 val_main_v49 val_main_v50 val_main_v48 val_main_v46 val_main_v47 val_main_v45 val_main_v43
    val_main_v44 val_main_v42 val_main_v41 val_main_call0_v1 val_main_call1_v1 val_main_call0_v0 val_main_call1_v0
    val_main_cst_5 val_main_cst_6 val_main_cst_7 val_main_cst_8 val_main_cst_9 val_main_cst_10 dice
  generalize val_main_v14 (F := Ideal) x0 = A
  generalize val_main_v26 (F := Ideal) x1 = B
  generalize val_main_v40 (F := Ideal) x0 x1 = C
  rfl

/-- For labels in range the reference's result is the Dice score of the counters of the reshaped rows. -/
theorem ref_value (x0 x1 : IVec S4x64x256x256 32)
    (h0 : InRange (val_main_v0 (F := Ideal) x0)) (h1 : InRange (val_main_v1 (F := Ideal) x1)) :
    val_main_v51 (F := Ideal) x0 x1
      = dice bcast_S_S4x5 reducesTo_S4x5_S5_d0 h_S_ bcast_S_S5
          (predOf (counters (val_main_v0 (F := Ideal) x0) (val_main_v1 (F := Ideal) x1)))
          (tarOf (counters (val_main_v0 (F := Ideal) x0) (val_main_v1 (F := Ideal) x1)))
          (bothOf (counters (val_main_v0 (F := Ideal) x0) (val_main_v1 (F := Ideal) x1))) := by
  rw [ref_tail, table_pred x0 h0 (val_main_v1 (F := Ideal) x1), table_tar x1 h1 (val_main_v0 (F := Ideal) x0),
    table_both x0 x1 h0]

end Cert.Dice

end
-- ==== Proof.LabelRange.lean ====
/-
  The precondition read back: every entry of both label volumes lies in [0, 5).

  The printed predicate is the conjunction over all voxels of  0 ≤ predicted, predicted < 5, 0 ≤ target, target < 5
  (signed compares against broadcast constants, combined by and, reduced by and over every axis); it is all ones exactly
  when each of the four compares holds at every voxel.
-/
import proofs.«404026_j58909771432702_2_alg».proof.Pre_any_inputs
import proofs.«404026_j58909771432702_2_alg».proof.Proof.Gen.Pre_any_inputs
import Idealize.ShloMosaic.PureOps.Ideal
import Idealize.ShloMosaic.Lib.ValueIdx
import Idealize.ShloMosaic.Lib.ReduceAll
import Idealize.ShloMosaic.Lib.StableHlo.Predicate

noncomputable section

namespace Cert.Dice

open Idealize.ShloMosaic Idealize.ShloMosaic.ValueIdx

/-- The scalar shape has one index. -/
instance subsingleton_scalar_idx : Subsingleton Cert.Pre_any_inputs.S_.Idx := ⟨fun _ _ => funext fun d => d.elim0⟩

/-- The four signed compares at one voxel, all true, are the two range claims at that voxel. -/
theorem range_of_compares (a b : BitVec 32)
    (h : IntOp.andi (IntOp.andi (IntOp.andi (IntOp.cmpi .sge a 0#32) (IntOp.cmpi .slt a 5#32)) (IntOp.cmpi .sge b 0#32))
      (IntOp.cmpi .slt b 5#32) = 1#1) :
    (0 ≤ a.toInt ∧ a.toInt < 5) ∧ (0 ≤ b.toInt ∧ b.toInt < 5) := by
  obtain ⟨h123, h4⟩ := IntOp.andi_eq_one.1 h
  obtain ⟨h12, h3⟩ := IntOp.andi_eq_one.1 h123
  obtain ⟨h1, h2⟩ := IntOp.andi_eq_one.1 h12
  have e0 : (0#32 : BitVec 32).toInt = 0 := by decide
  have e5 : (5#32 : BitVec 32).toInt = 5 := by decide
  have a1 := IntOp.cmpi_sge.1 h1
  have a2 := IntOp.cmpi_slt.1 h2
  have a3 := IntOp.cmpi_sge.1 h3
  have a4 := IntOp.cmpi_slt.1 h4
  rw [e0] at a1 a3
  rw [e5] at a2 a4
  exact ⟨⟨a1, a2⟩, ⟨a3, a4⟩⟩

/-- Where the precondition holds, every predicted and every target label is one of the five classes. -/
theorem labels_in_range {F : FTy → Type} [FloatOps F] [Cert.Pre_any_inputs.Facts]
    (x0 x1 : IVec Cert.Pre_any_inputs.S4x64x256x256 32)
    (h : Cert.Pre_any_inputs.fn (F := F) x0 x1 = fun _ => 1#1) :
    (∀ i, 0 ≤ (x0 i).toInt ∧ (x0 i).toInt < 5) ∧ (∀ i, 0 ≤ (x1 i).toInt ∧ (x1 i).toInt < 5) := by
  -- the reduced scalar is 1 at its one index
  have h0 := congrFun h (fun d => d.elim0)
  dsimp only [Cert.Pre_any_inputs.fn] at h0
  -- so the conjunction of the four compares is 1 at every voxel
  have key : ∀ i, (0 ≤ (x0 i).toInt ∧ (x0 i).toInt < 5) ∧ (0 ≤ (x1 i).toInt ∧ (x1 i).toInt < 5) := fun i =>
    range_of_compares (x0 i) (x1 i) (Host.reduce_andi_all _ _ _ _ _ h0 i)
  exact ⟨fun i => (key i).1, fun i => (key i).2⟩

end Cert.Dice

end
-- ==== Proof.Payload.lean ====
/-
  One grid point's update of the fifteen counters, read at one counter.

  The body leaves in the accumulator its previous contents plus, in column k of row b, the count of column k over the
  chunk of row b that the point was given: each of the fifteen columns is a lane sum of a 0/1 mask of the chunk
  (label = class, widened and converted), laid side by side, and added to what was there.
-/
import proofs.«404026_j58909771432702_2_alg».proof.Proof.Gen.KernelIdeal.Skeleton
import proofs.«404026_j58909771432702_2_alg».proof.Proof.Counts
import Idealize.ShloMosaic.Lib.Pipeline.Value
import Idealize.ShloMosaic.Lib.ValueLayout
import Idealize.ShloMosaic.PureOps.Ideal.Laws

noncomputable section

open scoped BigOperators

namespace Cert.Dice

open Idealize.ShloMosaic Idealize.ShloMosaic.ValueIdx Cert.KernelIdeal Cert.KernelIdeal.Gen

variable {F : FTy → Type} [FloatOps F]

/-- The accumulator after a point, from the point's two chunks and the accumulator before it. -/
def step (x0 x1 : Vec F S4x131072 .i32) (xs : Vec F S4x15 .f32) : FVec F S4x15 .f32 :=
  k0_pay1 (k0_pay16 (k0_pay3 x0) (k0_pay4 x1) (k0_pay7 x0) (k0_pay8 x1) (k0_pay9 x0 x1) (k0_pay12 x0) (k0_pay13 x1)
    (k0_pay14 x0 x1) (k0_pay15 x0) xs)

namespace Pay

/-! ## One voxel -/

/-- The comparison bit of "label = class", widened to a word and converted, is 1 on a hit and 0 off it. -/
theorem mask_eq (x : BitVec 32) (c : ℕ) :
    FloatOps.sitofp (F := Ideal) .f32 ((IntOp.cmpi .eq x (BitVec.ofNat 32 c)).setWidth 32) = hit x c := by
  show (((((BitVec.ofBool (x == BitVec.ofNat 32 c)).setWidth 32).toInt : ℤ) : ℝ) : EReal) = hit x c
  unfold hit
  by_cases h : x = BitVec.ofNat 32 c
  · rw [if_pos h, beq_iff_eq.mpr h]
    have e : ((BitVec.ofBool true).setWidth 32).toInt = 1 := by decide
    rw [e, Int.cast_one, EReal.coe_one]
  · rw [if_neg h, beq_eq_false_iff_ne.mpr h]
    have e : ((BitVec.ofBool false).setWidth 32).toInt = 0 := by decide
    rw [e, Int.cast_zero, EReal.coe_zero]

/-- The 0/1 mask of a chunk at a class, as a float vector. -/
def mask (x : IVec S4x131072 32) (c : BitVec 32) : FVec F S4x131072 .f32 :=
  sitofp .f32 (extui 32 (cmpi .eq x (broadcast S4x131072 c)) natLt_1_32)

/-- The mask at a voxel is that voxel's hit. -/
theorem mask_apply (x : IVec S4x131072 32) (c : ℕ) (i : S4x131072.Idx) :
    mask (F := Ideal) x (BitVec.ofNat 32 c) i = hit (x i) c := mask_eq (x i) c

/-! ## One column -/

/-- A lane sum laid as a column. -/
def col (src : FVec F S4x131072 .f32) : FVec F S4x1 .f32 :=
  shapeCast S4x1 (multiReduction .add [1] S4 src 0x00000000#32 reduces_S4x131072_S4 (.inl rfl) rfl) shapeCasts_S4_S4x1

/-- Row b of the column is the sum of row b of the vector over the lanes. -/
theorem col_apply (src : FVec Ideal S4x131072 .f32) (b : Fin 4) :
    col (F := Ideal) src (ix2 b (0 : Fin 1)) = ∑ j : Fin 131072, src (ix2 b j) := by
  unfold col
  refine (shapeCast_apply _ shapeCasts_S4_S4x1 (ix2 b (0 : Fin 1)) (ix1 b) ?_).trans ?_
  · rw [Shape.rowMajor_val_two, Shape.rowMajor_val_one]
    show b.val = b.val * 1 + 0
    omega
  · refine (Ideal.multiReduction_add_single src _ reduces_S4x131072_S4 _ _ (ix1 b)).trans ?_
    show ∑ k : Fin 131072, src (reduces_S4x131072_S4.lift (ix1 b) k) = _
    refine Finset.sum_congr rfl fun j _ => congrArg src ?_
    funext a
    match a with
    | ⟨0, _⟩ => rfl
    | ⟨1, _⟩ => rfl

/-! ## The body's values, named -/

/-- The reshape of a chunk to its own shape changes nothing. -/
theorem pay3_eq (x : IVec S4x131072 32) : k0_pay3 (F := Ideal) x = x := shapeCast_self x _
theorem pay4_eq (x : IVec S4x131072 32) : k0_pay4 (F := Ideal) x = x := shapeCast_self x _
/-- Nor does the reshape of the accumulator to its own shape. -/
theorem pay1_eq (v : FVec Ideal S4x15 .f32) : k0_pay1 (F := Ideal) v = v := shapeCast_self v _

/-- Column k of the fifteen the body lays side by side: for k below 5 the lane sum of the mask of the predicted chunk at
    class k, for k from 5 to 9 that of the target chunk at class k - 5, from 10 on that of the product of the two masks at
    class k - 10. -/
def cols (x0 x1 : IVec S4x131072 32) (k : Fin 15) : FVec Ideal S4x1 .f32 :=
  if k.val < 5 then col (mask (k0_pay3 (F := Ideal) x0) (BitVec.ofNat 32 k.val))
  else if k.val < 10 then col (mask (k0_pay4 (F := Ideal) x1) (BitVec.ofNat 32 (k.val - 5)))
  else col (mulf (mask (k0_pay3 (F := Ideal) x0) (BitVec.ofNat 32 (k.val - 10)))
    (mask (k0_pay4 (F := Ideal) x1) (BitVec.ofNat 32 (k.val - 10))))

/-- The new accumulator is the old one plus the fifteen columns side by side. -/
theorem step_unfold (x0 x1 : IVec S4x131072 32) (xs : FVec Ideal S4x15 .f32) :
    step (F := Ideal) x0 x1 xs = k0_pay1 (F := Ideal) (addf xs (concatenate S4x15 1
      (List.ofFn fun n : Fin 15 => (⟨S4x1, cols x0 x1 n⟩ : (s : Shape) × (s.Idx → Ideal .f32)))
      concatenates_S4x1_S4x1_S4x1_S4x1_S4x1_S4x1_S4x1_S4x1_S4x1_S4x1_S4x1_S4x1_S4x1_S4x1_S4x1_S4x15_d1)) := rfl

/-! ## The three kinds of column -/

/-- A predicted-class column counts the chunk's voxels predicted in the class. -/
theorem pred_col (x0 : IVec S4x131072 32) (c : ℕ) (b : Fin 4) :
    col (F := Ideal) (mask (k0_pay3 (F := Ideal) x0) (BitVec.ofNat 32 c)) (ix2 b (0 : Fin 1))
      = ∑ j : Fin 131072, hit (x0 (ix2 b j)) c := by
  rw [pay3_eq]
  exact (col_apply _ b).trans (Finset.sum_congr rfl fun j _ => mask_apply x0 c _)

/-- A target-class column counts the chunk's voxels whose target is the class. -/
theorem tar_col (x1 : IVec S4x131072 32) (c : ℕ) (b : Fin 4) :
    col (F := Ideal) (mask (k0_pay4 (F := Ideal) x1) (BitVec.ofNat 32 c)) (ix2 b (0 : Fin 1))
      = ∑ j : Fin 131072, hit (x1 (ix2 b j)) c := by
  rw [pay4_eq]
  exact (col_apply _ b).trans (Finset.sum_congr rfl fun j _ => mask_apply x1 c _)

/-- A column of both counts the voxels predicted in the class whose target is the class too. -/
theorem both_col (x0 x1 : IVec S4x131072 32) (c : ℕ) (b : Fin 4) :
    col (F := Ideal) (mulf (mask (k0_pay3 (F := Ideal) x0) (BitVec.ofNat 32 c)) (mask (k0_pay4 (F := Ideal) x1) (BitVec.ofNat 32 c)))
        (ix2 b (0 : Fin 1))
      = ∑ j : Fin 131072, hit (x0 (ix2 b j)) c * hit (x1 (ix2 b j)) c := by
  rw [pay3_eq, pay4_eq]
  refine (col_apply _ b).trans (Finset.sum_congr rfl fun j _ => ?_)
  rw [mulf_apply, mask_apply, mask_apply]

/-- Row b of column k is column k of row b counted over the chunk. -/
theorem cols_apply (x0 x1 : IVec S4x131072 32) (b : Fin 4) (k : Fin 15) :
    cols x0 x1 k (ix2 b (0 : Fin 1)) = ∑ j : Fin 131072, entry k.val (x0 (ix2 b j)) (x1 (ix2 b j)) := by
  unfold cols entry
  by_cases h1 : k.val < 5
  · simp only [if_pos h1]
    exact pred_col x0 k.val b
  · by_cases h2 : k.val < 10
    · simp only [if_neg h1, if_pos h2]
      exact tar_col x1 (k.val - 5) b
    · simp only [if_neg h1, if_neg h2]
      exact both_col x0 x1 (k.val - 10) b

end Pay

open Pay in
/-- Counter (b, k) after the point is the counter before it plus column k of row b counted over the chunk. -/
theorem step_apply (x0 x1 : IVec SBlk 32) (xs : FVec Ideal SAcc .f32) (b : Fin 4) (k : Fin 15) :
    step (F := Ideal) x0 x1 xs (ix2 b k) = xs (ix2 b k) + chunkSum x0 x1 b k := by
  rw [step_unfold, pay1_eq, addf_apply]
  refine congrArg (xs (ix2 b k) + ·) ?_
  refine (concatenate_ofFn_unit_apply (1 : Fin S4x15.rank) (cols x0 x1) _ rfl rfl (ix2 b k) k rfl
    (ix2 b (0 : Fin 1)) ?_).trans (cols_apply x0 x1 b k)
  intro a ha
  match a, ha with
  | ⟨0, _⟩, _ => rfl
  | ⟨1, _⟩, ha => exact absurd rfl ha

end Cert.Dice

end
-- ==== Proof.Pieces.lean ====
/-
  What each control case of the body leaves behind, as the counters' update.

  At the first grid point the accumulator is cleared and then updated; at every later point it is updated from what
  the point before left; at the last point the updated accumulator is also copied to the output block.  In every
  case the accumulator (and, at the last point, the output block) ends at the update of the point's two chunks
  applied to the accumulator's contents before the point (all zeros at the first point).
-/
import proofs.«404026_j58909771432702_2_alg».proof.Proof.Gen.KernelIdeal.Frame
import proofs.«404026_j58909771432702_2_alg».proof.Proof.Payload

set_option maxRecDepth 16384

noncomputable section

namespace Cert.KernelIdeal.Gen

open Idealize.ShloMosaic Idealize.ShloMosaic.TcCoe Idealize.ShloMosaic.Tactic
open Idealize.SL Idealize.SL.Sem

variable {F : FTy → Type} [FloatOps F]

theorem origin_zero : (![0, 0] : Fin 2 → Nat) = fun _ => 0 := funext fun a => by fin_cases a <;> rfl

/-- Middle points: the accumulator ends at the update of what the point before left. -/
theorem sout_B (c : Dev nD) (i : grid0.Coords) (arg1 : Memref sig .tc .vmem S4x131072 .i32) (harg1 : arg1.IsWhole) (arg2 : Memref sig .tc .vmem S4x131072 .i32) (harg2 : arg2.IsWhole) (arg3 : Memref sig .tc .vmem S4x15 .f32) (harg3 : arg3.IsWhole) (arg4 : Memref sig .tc .vmem S4x15 .f32) (harg4 : arg4.IsWhole) (hc0 : ¬cond0_0 i) (hc1 : ¬cond0_1 i)
    (x0 x1 : Vec F S4x131072 .i32) (xs0 : Vec F S4x15 .f32) :
    sout0_B_0 c i arg1 harg1 arg2 harg2 arg3 harg3 arg4 harg4 hc0 hc1 x0 x1 xs0 = Cert.Dice.step x0 x1 xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  sl_unfold_words
  rw [View.canon_unit_zero origin_zero]
  simp only [View.readAt_eq_ld, harg1.read_unread, harg2.read_unread, harg4.read_unread,
    View.ld_unit_zero (S := S4x131072) origin_zero, View.ld_unit_zero (S := S4x15) origin_zero]
  rfl

/-- The first point: the accumulator ends at the update of the all-zero table. -/
theorem sout_A (c : Dev nD) (i : grid0.Coords) (arg1 : Memref sig .tc .vmem S4x131072 .i32) (harg1 : arg1.IsWhole) (arg2 : Memref sig .tc .vmem S4x131072 .i32) (harg2 : arg2.IsWhole) (arg3 : Memref sig .tc .vmem S4x15 .f32) (harg3 : arg3.IsWhole) (arg4 : Memref sig .tc .vmem S4x15 .f32) (harg4 : arg4.IsWhole) (hc0 : cond0_0 i) (hc1 : ¬cond0_1 i)
    (x0 x1 : Vec F S4x131072 .i32) :
    sout0_A_0 c i arg1 harg1 arg2 harg2 arg3 harg3 arg4 harg4 hc0 hc1 x0 x1 = Cert.Dice.step x0 x1 k0_pay2 := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S4x15) origin_zero, View.readCov_unit_zero (S := S4x15) _ origin_zero]
  simp only [View.readAt_eq_ld, harg1.read_unread, harg2.read_unread,
    View.ld_unit_zero (S := S4x131072) origin_zero, View.ld_unit_zero (S := S4x15) origin_zero]
  rfl

/-- The last point: the accumulator ends at the update of what the point before left, -/
theorem sout_C (c : Dev nD) (i : grid0.Coords) (arg1 : Memref sig .tc .vmem S4x131072 .i32) (harg1 : arg1.IsWhole) (arg2 : Memref sig .tc .vmem S4x131072 .i32) (harg2 : arg2.IsWhole) (arg3 : Memref sig .tc .vmem S4x15 .f32) (harg3 : arg3.IsWhole) (arg4 : Memref sig .tc .vmem S4x15 .f32) (harg4 : arg4.IsWhole) (hc0 : ¬cond0_0 i) (hc1 : cond0_1 i)
    (x0 x1 : Vec F S4x131072 .i32) (xs0 : Vec F S4x15 .f32) :
    sout0_C_0 c i arg1 harg1 arg2 harg2 arg3 harg3 arg4 harg4 hc0 hc1 x0 x1 xs0 = Cert.Dice.step x0 x1 xs0 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero origin_zero]
  simp only [View.readAt_eq_ld, harg1.read_unread, harg2.read_unread, harg4.read_unread,
    View.ld_unit_zero (S := S4x131072) origin_zero, View.ld_unit_zero (S := S4x15) origin_zero]
  rfl

/-- and the output block at the same table. -/
theorem out_C (c : Dev nD) (i : grid0.Coords) (arg1 : Memref sig .tc .vmem S4x131072 .i32) (harg1 : arg1.IsWhole) (arg2 : Memref sig .tc .vmem S4x131072 .i32) (harg2 : arg2.IsWhole) (arg3 : Memref sig .tc .vmem S4x15 .f32) (harg3 : arg3.IsWhole) (arg4 : Memref sig .tc .vmem S4x15 .f32) (harg4 : arg4.IsWhole) (hc0 : ¬cond0_0 i) (hc1 : cond0_1 i)
    (x0 x1 : Vec F S4x131072 .i32) (xs0 : Vec F S4x15 .f32) :
    out0_C_2 c i arg1 harg1 arg2 harg2 arg3 harg3 arg4 harg4 hc0 hc1 x0 x1 xs0 = Cert.Dice.step x0 x1 xs0 := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero origin_zero, View.readCov_unit_zero (S := S4x15) _ origin_zero]
  simp only [View.readAt_eq_ld, harg1.read_unread, harg2.read_unread, harg4.read_unread,
    View.ld_unit_zero (S := S4x131072) origin_zero, View.ld_unit_zero (S := S4x15) origin_zero]
  rfl

end Cert.KernelIdeal.Gen

end
-- ==== Proof.Rows.lean ====
/-
  The label volumes as four rows of voxels, and the chunk each grid point is given.

  Before the region both label volumes are reshaped to four rows of 4194304 voxels.  The two input windows move along
  the rows: grid point t is given, of every row, the voxels 131072 t … 131072 t + 131071, which is chunk t of the rows.
-/
import proofs.«404026_j58909771432702_2_alg».proof.Proof.Gen.KernelIdeal.Frame
import proofs.«404026_j58909771432702_2_alg».proof.Proof.Counts

set_option maxRecDepth 16384

noncomputable section

namespace Cert.KernelIdeal.Gen

open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-- The predicted labels, four rows, as the region finds them. -/
abbrev rowsP (c : Dev nD) : IVec Cert.Dice.SLab 32 := V m c main_v0
/-- The target labels, four rows, as the region finds them. -/
abbrev rowsT (c : Dev nD) : IVec Cert.Dice.SLab 32 := V m c main_v1

/-- A grid point as a chunk number. -/
abbrev chunkNo (t : Fin cfg0.N) : Fin 32 := ⟨t.val, lt_of_lt_of_eq t.isLt N_0⟩

/-- Both input windows stay on block row 0 and sit on block column t at point t. -/
theorem input_index : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- Point t's block of the predicted labels is chunk t of their rows. -/
theorem blockP_eq (c : Dev nD) (t : Fin cfg0.N) :
    (iblk m c 0 t : Vec F S4x131072 .i32) = Cert.Dice.chunk (rowsP m c) (chunkNo t) := by
  obtain ⟨e0, e1, -, -⟩ := input_index t
  funext y
  show V m c main_v0 (((cfg0.win 0).blk t).view.emb y) = V m c main_v0 (ix2 (y 0) (Cert.Dice.voxel (chunkNo t) (y 1)))
  refine congrArg (V m c main_v0) ?_
  funext a; apply Fin.ext
  match a with
  | ⟨0, _⟩ => show win0_0.index t (0 : Fin 2) * 4 + 1 * (y 0).val = (y 0).val; omega
  | ⟨1, _⟩ => show win0_0.index t (1 : Fin 2) * 131072 + 1 * (y 1).val = t.val * 131072 + (y 1).val; omega

/-- Point t's block of the target labels is chunk t of their rows. -/
theorem blockT_eq (c : Dev nD) (t : Fin cfg0.N) :
    (iblk m c 1 t : Vec F S4x131072 .i32) = Cert.Dice.chunk (rowsT m c) (chunkNo t) := by
  obtain ⟨-, -, e2, e3⟩ := input_index t
  funext y
  show V m c main_v1 (((cfg0.win 1).blk t).view.emb y) = V m c main_v1 (ix2 (y 0) (Cert.Dice.voxel (chunkNo t) (y 1)))
  refine congrArg (V m c main_v1) ?_
  funext a; apply Fin.ext
  match a with
  | ⟨0, _⟩ => show win0_1.index t (0 : Fin 2) * 4 + 1 * (y 0).val = (y 0).val; omega
  | ⟨1, _⟩ => show win0_1.index t (1 : Fin 2) * 131072 + 1 * (y 1).val = t.val * 131072 + (y 1).val; omega

end Cert.KernelIdeal.Gen

end
-- ==== Proof.Accumulate.lean ====
/-
  The accumulator after each grid point, and the output after the last.

  The first point clears the accumulator and adds its chunk's counts; every later point adds its chunk's counts to what
  the point before left.  So after point n counter (b, k) holds the counts of chunks 0 … n of row b summed, and after
  the last of the 32 points the count over the whole row; the last point also copies the accumulator to the output
  block.
-/
import proofs.«404026_j58909771432702_2_alg».proof.Proof.Pieces
import proofs.«404026_j58909771432702_2_alg».proof.Proof.Rows

set_option maxRecDepth 16384

noncomputable section

open scoped BigOperators

namespace Cert.KernelIdeal.Gen

open Idealize.ShloMosaic Idealize.ShloMosaic.TcCoe Idealize.ShloMosaic.ValueIdx
open Idealize.SL Idealize.SL.Sem
open Cert.Dice

variable (m : (ℓ : Loc nD τ sig) → Buf (Elt Ideal) ℓ)

/-- The cleared accumulator holds zero everywhere. -/
theorem cleared_apply (i : S4x15.Idx) : k0_pay2 (F := Ideal) i = 0 := by
  unfold k0_pay2
  rw [shapeCast_self]
  exact Ideal.ofBits_zero_f32

/-- Chunk s of the predicted rows, the chunk number read modulo 32. -/
def chunkP (c : Dev nD) (s : ℕ) : IVec SBlk 32 := chunk (rowsP m c) ⟨s % 32, Nat.mod_lt _ (by norm_num)⟩
/-- Chunk s of the target rows, the chunk number read modulo 32. -/
def chunkT (c : Dev nD) (s : ℕ) : IVec SBlk 32 := chunk (rowsT m c) ⟨s % 32, Nat.mod_lt _ (by norm_num)⟩

theorem chunkP_of (c : Dev nD) (t : Fin cfg0.N) : chunk (rowsP m c) (chunkNo t) = chunkP m c t.val := by
  unfold chunkP
  exact congrArg (chunk (rowsP m c)) (Fin.ext (Nat.mod_eq_of_lt (lt_of_lt_of_eq t.isLt N_0)).symm)

theorem chunkT_of (c : Dev nD) (t : Fin cfg0.N) : chunk (rowsT m c) (chunkNo t) = chunkT m c t.val := by
  unfold chunkT
  exact congrArg (chunk (rowsT m c)) (Fin.ext (Nat.mod_eq_of_lt (lt_of_lt_of_eq t.isLt N_0)).symm)

theorem step_congr {x0 x0' x1 x1' : Vec Ideal S4x131072 .i32} (h0 : x0 = x0') (h1 : x1 = x1') (xs : Vec Ideal S4x15 .f32) :
    step (F := Ideal) x0 x1 xs = step (F := Ideal) x0' x1' xs := by
  subst h0 h1; rfl

/-- Counter (b, k) after point t's update of the table xs: what xs held plus chunk t's count. -/
theorem after_point (c : Dev nD) (t : Fin cfg0.N) (xs : Vec Ideal S4x15 .f32) (b : Fin 4) (k : Fin 15) :
    step (F := Ideal) (iblk m c 0 t) (iblk m c 1 t) xs (ix2 b k)
      = xs (ix2 b k) + chunkSum (chunkP m c t.val) (chunkT m c t.val) b k :=
  (congrFun (step_congr ((blockP_eq m c t).trans (chunkP_of m c t)) ((blockT_eq m c t).trans (chunkT_of m c t)) xs) (ix2 b k)).trans
    (step_apply (chunkP m c t.val) (chunkT m c t.val) xs b k)

/-- After point n the accumulator's counter (b, k) is the sum of the counts of chunks 0 … n. -/
theorem scratch_after (c : Dev nD) (b : Fin 4) (k : Fin 15) : ∀ (n : ℕ) (h : n < cfg0.N),
    (outsAt0 m c n h).2 (ix2 b k) = ∑ s ∈ Finset.range (n + 1), chunkSum (chunkP m c s) (chunkT m c s) b k
  | 0, h => by
    rw [show outsAt0 m c 0 h = _ from outsAt0_A m c ⟨0, h⟩ (Nat.zero_mod 32) (by norm_num)]
    dsimp only
    refine (congrFun (sout_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) _ _ (iblk m c 0 ⟨0, h⟩) (iblk m c 1 ⟨0, h⟩)) (ix2 b k)).trans ?_
    refine (after_point m c ⟨0, h⟩ (k0_pay2 (F := Ideal)) b k).trans ?_
    rw [cleared_apply, zero_add, Finset.sum_range_one]
  | n + 1, h => by
    have hN : n + 1 < 32 := lt_of_lt_of_eq h N_0
    have ih := scratch_after c b k n (Nat.lt_of_succ_lt h)
    rw [Finset.sum_range_succ, ← ih]
    by_cases h1 : (n + 1) % 32 = 31
    · rw [show outsAt0 m c (n + 1) h = _ from outsAt0_C m c ⟨n + 1, h⟩ (by show ¬(n + 1) % 32 = 0; omega) h1]
      dsimp only
      refine (congrFun (sout_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩)
        (outsAt0 m c (n + 1 - 1) (Nat.lt_of_le_of_lt (Nat.sub_le _ _) h)).2) (ix2 b k)).trans ?_
      exact after_point m c ⟨n + 1, h⟩ _ b k
    · rw [show outsAt0 m c (n + 1) h = _ from outsAt0_B m c ⟨n + 1, h⟩ (by show ¬(n + 1) % 32 = 0; omega) h1]
      dsimp only
      refine (congrFun (sout_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩)
        (outsAt0 m c (n + 1 - 1) (Nat.lt_of_le_of_lt (Nat.sub_le _ _) h)).2) (ix2 b k)).trans ?_
      exact after_point m c ⟨n + 1, h⟩ _ b k

/-- The output block after the last point: the sum of all 32 chunks' counts. -/
theorem output_last (c : Dev nD) (b : Fin 4) (k : Fin 15) (h : 31 < cfg0.N) :
    (outsAt0 m c 31 h).1 (ix2 b k) = ∑ s ∈ Finset.range 32, chunkSum (chunkP m c s) (chunkT m c s) b k := by
  have ih := scratch_after m c b k 30 (Nat.lt_of_succ_lt h)
  rw [Finset.sum_range_succ, ← ih]
  rw [show outsAt0 m c 31 h = _ from outsAt0_C m c ⟨31, h⟩ (by norm_num) (by norm_num)]
  dsimp only
  refine (congrFun (out_C (F := Ideal) c (grid0.coords ⟨31, h⟩) (ms0_0 ⟨31, h⟩) (hs0_0 ⟨31, h⟩) (ms0_1 ⟨31, h⟩) (hs0_1 ⟨31, h⟩) (ms0_2 ⟨31, h⟩) (hs0_2 ⟨31, h⟩) scM0_0 (Memref.isWhole_whole _) _ _ (iblk m c 0 ⟨31, h⟩) (iblk m c 1 ⟨31, h⟩)
    (outsAt0 m c (31 - 1) (Nat.lt_of_le_of_lt (Nat.sub_le _ _) h)).2) (ix2 b k)).trans ?_
  exact after_point m c ⟨31, h⟩ _ b k

/-- The 32 chunks' counts summed are the count over the whole row. -/
theorem chunks_total (c : Dev nD) (b : Fin 4) (k : Fin 15) :
    ∑ s ∈ Finset.range 32, chunkSum (chunkP m c s) (chunkT m c s) b k = total (rowsP m c) (rowsT m c) b k := by
  rw [total_eq_sum_chunks, Finset.sum_range]
  refine Finset.sum_congr rfl fun s _ => ?_
  have e : (⟨s.val % 32, Nat.mod_lt _ (by norm_num)⟩ : Fin 32) = s := Fin.ext (Nat.mod_eq_of_lt s.isLt)
  unfold chunkP chunkT
  rw [e]

end Cert.KernelIdeal.Gen

end
-- ==== Proof.OutputTable.lean ====
/-
  What the region leaves in its output array: the table of all the row counters.

  The output window holds the whole 4 x 15 table, sits on it at every grid point and is written back only after the
  last, when the output block holds the counts over the whole rows.  The rows are the two label volumes reshaped by
  the host before the region.
-/
import proofs.«404026_j58909771432702_2_alg».proof.Proof.Accumulate
import Idealize.ShloMosaic.Lib.StableHlo.Run

set_option maxRecDepth 16384

noncomputable section

open scoped BigOperators

namespace Cert.KernelIdeal.Gen

open Idealize.ShloMosaic Idealize.ShloMosaic.TcCoe Idealize.ShloMosaic.ValueIdx Idealize.ShloMosaic.StableHlo
open Idealize.SL Idealize.SL.Sem
open Cert.Dice

variable (m : (ℓ : Loc nD τ sig) → Buf (Elt Ideal) ℓ) (ρ : Dev nD → PrngReg)

/-- The output window stays on block (0, 0). -/
theorem output_index : ∀ t : Fin cfg0.N, win0_2.index t (0 : Fin 2) = 0 ∧ win0_2.index t (1 : Fin 2) = 0 :=
  (by decide +kernel : ∀ t : Fin grid0.N, _)

/-- It is written back after the last point and after no other. -/
theorem output_flush : ∀ t : Fin cfg0.N, (cfg0.win 2).flush t = true ↔ t.val = 31 :=
  (by decide +kernel : ∀ t : Fin grid0.N, _)

theorem last_lt : 31 < cfg0.N := by rw [show cfg0.N = 32 from N_0]; norm_num

/-- An index of the table is in point t's block iff each coordinate is in the block's range on its axis. -/
theorem mem_output_block (t : Fin cfg0.N) (i : S4x15.Idx) :
    i ∈ ((cfg0.win 2).blk t).view.set ↔ ∀ a : Fin 2, win0_2.index t a * S4x15.size a ≤ (i a).val ∧ (i a).val < win0_2.index t a * S4x15.size a + S4x15.size a := by
  show i ∈ ((View.whole main_v2).slice (win0_2.rect t)).set ↔ _
  rw [View.set_slice_whole, Rect.mem_set_unit]
  exact Iff.rfl

/-- The last point's block is the whole table. -/
theorem output_cover (i : S4x15.Idx) : ∃ t : Fin cfg0.N, (cfg0.win 2).flush t = true ∧ i ∈ ((cfg0.win 2).blk t).view.set := by
  refine ⟨⟨31, last_lt⟩, (output_flush _).2 rfl, ?_⟩
  rw [mem_output_block]
  obtain ⟨e0, e1⟩ := output_index ⟨31, last_lt⟩
  intro a
  match a with
  | ⟨0, _⟩ =>
    show win0_2.index ⟨31, last_lt⟩ (0 : Fin 2) * 4 ≤ (i 0).val ∧ (i 0).val < win0_2.index ⟨31, last_lt⟩ (0 : Fin 2) * 4 + 4
    have hi : (i 0).val < 4 := (i 0).isLt
    omega
  | ⟨1, _⟩ =>
    show win0_2.index ⟨31, last_lt⟩ (1 : Fin 2) * 15 ≤ (i 1).val ∧ (i 1).val < win0_2.index ⟨31, last_lt⟩ (1 : Fin 2) * 15 + 15
    have hi : (i 1).val < 15 := (i 1).isLt
    omega

/-- What the last point writes back is the table of all the counters. -/
theorem output_flushed (c : Dev nD) (t : Fin cfg0.N) (hf : (cfg0.win 2).flush t = true) :
    (dats m 0 c).flushed 2 t = ((cfg0.win 2).blk t).view.read (Elt Ideal) (counters (rowsP m c) (rowsT m c)) := by
  have ht : t.val = 31 := (output_flush t).1 hf
  obtain ⟨e0, e1⟩ := output_index t
  have hout : (outsAt0 m c t.val t.isLt).1 = counters (rowsP m c) (rowsT m c) := by
    have key : ∀ (n : ℕ) (hn : n < cfg0.N), n = 31 → (outsAt0 m c n hn).1 = counters (rowsP m c) (rowsT m c) := by
      intro n hn e
      subst e
      funext y
      obtain ⟨p, q, rfl⟩ : ∃ (p : Fin 4) (q : Fin 15), y = ix2 p q := ⟨y 0, y 1, eq_ix2 y⟩
      rw [output_last m c p q hn, chunks_total]
      rfl
    exact key t.val t.isLt ht
  show (cfg0.win 2).cut (grid0.coords t) ((dats m 0 c).after 2 t) = _
  rw [after0_2, hout]
  have hz' : (fun a => win0_2.index t a * main_v2.ty.shape.size a) = fun _ => 0 := funext fun a => by
    match a with
    | ⟨0, _⟩ => show win0_2.index t (0 : Fin 2) * 4 = 0; omega
    | ⟨1, _⟩ => show win0_2.index t (1 : Fin 2) * 15 = 0; omega
  exact (Memref.read_access_unit_zero (Elt Ideal) main_v2 hz' (fun a => by rw [congrFun hz' a]; simp)
    (counters (rowsP m c) (rowsT m c))).symm

/-- The region leaves the table of all the counters in the output array. -/
theorem output_final (c : Dev nD) : (dats m 0 c).arrAt 2 cfg0.N = counters (rowsP m c) (rowsT m c) :=
  (dats m 0 c).arrAt_eq_of_cover 2 _ (fun t hf => output_flushed m c t hf) output_cover

/-- The reshaped predicted labels are the rows the region finds. -/
theorem rowsP_eq (c : Dev nD) :
    rowsP m c = shapeCast S4x4194304 (m ((c : Thread nD τ).loc main_arg0)) shapeCasts_S4x64x256x256_S4x4194304 := by
  show StableHlo.after hostOps0 (fun b => m (c, b)) (Proc.devRef .tc main_v0) = _
  after_results
  rfl

/-- The reshaped target labels are the rows the region finds. -/
theorem rowsT_eq (c : Dev nD) :
    rowsT m c = shapeCast S4x4194304 (m ((c : Thread nD τ).loc main_arg1)) shapeCasts_S4x64x256x256_S4x4194304 := by
  show StableHlo.after hostOps0 (fun b => m (c, b)) (Proc.devRef .tc main_v1) = _
  after_results
  rfl

end Cert.KernelIdeal.Gen

end
-- ==== Proof.HostTail.lean ====
/-
  The kernel program's result: the Dice score of the row counters.

  After the region the host cuts the 4 x 15 table of counters into its three 4 x 5 parts (columns 0-4, 5-9, 10-14:
  predicted, target, both) and computes the score from them.
-/
import proofs.«404026_j58909771432702_2_alg».proof.Proof.OutputTable
import Idealize.ShloMosaic.Lib.StableHlo.Run

set_option maxRecDepth 16384

noncomputable section

open scoped BigOperators

namespace Cert.KernelIdeal.Gen

open Idealize.ShloMosaic Idealize.ShloMosaic.TcCoe Idealize.ShloMosaic.ValueIdx Idealize.ShloMosaic.StableHlo
open Idealize.SL Idealize.SL.Sem
open Cert.Dice

variable (m : (ℓ : Loc nD τ sig) → Buf (Elt Ideal) ℓ) (ρ : Dev nD → PrngReg)

/-- Columns 0-4 of the table. -/
theorem slice_pred (A : S4x15.Idx → EReal) (h : S4x15.Slices ![0, 0] S4x5) : extractStridedSlice S4x5 ![0, 0] A h = predOf A := by
  funext i
  refine congrArg A (funext fun a => Fin.ext ?_)
  match a with
  | ⟨0, _⟩ => show 0 + (i 0).val = (i 0).val; omega
  | ⟨1, _⟩ => show 0 + (i 1).val = (i 1).val; omega

/-- Columns 5-9 of the table. -/
theorem slice_tar (A : S4x15.Idx → EReal) (h : S4x15.Slices ![0, 5] S4x5) : extractStridedSlice S4x5 ![0, 5] A h = tarOf A := by
  funext i
  refine congrArg A (funext fun a => Fin.ext ?_)
  match a with
  | ⟨0, _⟩ => show 0 + (i 0).val = (i 0).val; omega
  | ⟨1, _⟩ => show 5 + (i 1).val = (i 1).val + 5; omega

/-- Columns 10-14 of the table. -/
theorem slice_both (A : S4x15.Idx → EReal) (h : S4x15.Slices ![0, 10] S4x5) : extractStridedSlice S4x5 ![0, 10] A h = bothOf A := by
  funext i
  refine congrArg A (funext fun a => Fin.ext ?_)
  match a with
  | ⟨0, _⟩ => show 0 + (i 0).val = (i 0).val; omega
  | ⟨1, _⟩ => show 10 + (i 1).val = (i 1).val + 10; omega

/-- The score as the host computes it from the 4 x 15 table: the three column blocks cut out, then the score. -/
def scoreOf (A : S4x15.Idx → EReal) : FVec Ideal SOut .f32 :=
  dice bcast_S_S4x5 reducesTo_S4x5_S5_d0 h_S_ bcast_S_S5 (extractStridedSlice S4x5 ![0, 0] A slices_S4x15_S4x5_0_0)
    (extractStridedSlice S4x5 ![0, 5] A slices_S4x15_S4x5_0_5) (extractStridedSlice S4x5 ![0, 10] A slices_S4x15_S4x5_0_10)

/-- The region's exit contents of the output array, as the host operations after it find them. -/
abbrev exitTable (c : Dev nD) : S4x15.Idx → EReal :=
  Pipeline.withArrays (cfgs 0).spec c (V0 m c) (fun w => (dats m 0 c).arrAt w (cfgs 0).N) (Proc.devRef .tc main_v2)

set_option maxHeartbeats 1000000 in
/-- The host operations after the region compute the score of the table the region left. -/
theorem tail_read (c : Dev nD) :
    Pipeline.afterTail₀ cfgs (dats m) 0 (V0 m) [hostOps1, hostOps1_1, hostOps1_2, hostOps1_3, hostOps1_4] c main_v16
      = scoreOf (exitTable m c) := by
  unfold Pipeline.afterTail₀
  simp only [hostOps1, hostOps1_1, hostOps1_2, hostOps1_3, hostOps1_4, List.flatten_cons, List.flatten_nil, List.append_nil,
    List.cons_append, List.nil_append]
  after_results
  unfold exitTable
  generalize Pipeline.withArrays (cfgs 0).spec c (V0 m c) (fun w => (dats m 0 c).arrAt w (cfgs 0).N) (Proc.devRef .tc main_v2) = W
  simp only [TRef.ofBuf, TRef.toBuf, cast_eq]
  rfl

/-- The table the region left is the table of all the counters. -/
theorem exitTable_eq (c : Dev nD) : exitTable m c = counters (rowsP m c) (rowsT m c) :=
  (Pipeline.withArrays_arr (cfgs 0).spec launch0.win.arr_inj c _ _ 2).trans (output_final m c)

/-- The score of a table is the score of its three column blocks. -/
theorem scoreOf_eq (A : S4x15.Idx → EReal) :
    scoreOf A = dice bcast_S_S4x5 reducesTo_S4x5_S5_d0 h_S_ bcast_S_S5 (predOf A) (tarOf A) (bothOf A) := by
  unfold scoreOf
  rw [slice_pred, slice_tar, slice_both]

/-- The result buffer after the host operations that follow the region. -/
theorem result_eq (c : Dev nD) :
    Pipeline.afterTail₀ cfgs (dats m) 0 (V0 m) [hostOps1, hostOps1_1, hostOps1_2, hostOps1_3, hostOps1_4] c main_v16
      = dice bcast_S_S4x5 reducesTo_S4x5_S5_d0 h_S_ bcast_S_S5 (predOf (counters (rowsP m c) (rowsT m c)))
          (tarOf (counters (rowsP m c) (rowsT m c))) (bothOf (counters (rowsP m c) (rowsT m c))) :=
  (tail_read m c).trans ((congrArg scoreOf (exitTable_eq m c)).trans (scoreOf_eq _))

end Cert.KernelIdeal.Gen

end
-- ==== Proof.KernelRun.lean ====
/-
  The idealized kernel program's run, with its result named.

  Every weakly fair execution terminates with the result array at the Dice score of the row counters of the two
  reshaped label volumes, and with the label volumes unchanged.
-/
import proofs.«404026_j58909771432702_2_alg».proof.Proof.HostTail

set_option maxRecDepth 16384

noncomputable section

namespace Cert.KernelIdeal.Gen

open Idealize.ShloMosaic Idealize.ShloMosaic.TcCoe Idealize.ShloMosaic.StableHlo
open Idealize.SL Idealize.SL.Sem
open Cert.Dice

variable (m : (ℓ : Loc nD τ sig) → Buf (Elt Ideal) ℓ) (ρ : Dev nD → PrngReg)

/-- The score the kernel program returns on core c. -/
abbrev score (c : Dev nD) : FVec Ideal SOut .f32 :=
  dice bcast_S_S4x5 reducesTo_S4x5_S5_d0 h_S_ bcast_S_S5 (predOf (counters (rowsP m c) (rowsT m c)))
    (tarOf (counters (rowsP m c) (rowsT m c))) (bothOf (counters (rowsP m c) (rowsT m c)))

theorem value_run : θ_run defs (onTc (τ := τ) (main (F := Ideal))) ⟨m, fun _ => 0, ρ⟩ (fun r => ∀ c : Dev nD,
      r.2.mem ((c.tc : Thread nD τ).loc main_v16) = score m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v16 (Pipeline.mem_restRefs_of main_v16 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Gen

end
-- ==== Proof.lean ====
/-
  The certificate's proof: a Pallas kernel that computes the per-class Dice score of two label volumes against its
  jnp reference, equal over the extended reals for labels in [0, 5).

  Both programs reshape the volumes to four rows of 4194304 voxels and both end with the same arithmetic on three
  4 x 5 tables of counts (predicted = c, target = c, both = c, per row): 2 * both / (predicted + target), 1 / 1 where
  the denominator is 0, averaged over the rows.  The kernel counts by comparing: over 32 grid points it adds to a
  4 x 15 accumulator, for each chunk of 131072 voxels of every row, the lane sums of the fifteen 0/1 masks, and copies
  the accumulator out after the last point.  The reference counts by scattering 1 (or, for the third table, 1 where
  predicted = target) into segment label + 5 * row of twenty.  With every label in [0, 5) segment 5 b + c receives
  exactly the voxels of row b with label c, so the two sets of tables are the same sums of zeros and ones in two
  orders, and nothing beyond commutativity and associativity of addition is used.  Outside [0, 5) the two differ (a
  label 5 in row 0 is counted by the reference as class 0 of row 1), which is why the precondition states the range.
-/
import proofs.«404026_j58909771432702_2_alg».proof.Defs
import proofs.«404026_j58909771432702_2_alg».proof.Proof.Gen.Kernel
import proofs.«404026_j58909771432702_2_alg».proof.Proof.Gen.Kernel.Skeleton
import proofs.«404026_j58909771432702_2_alg».proof.Proof.Gen.Kernel.Launch
import proofs.«404026_j58909771432702_2_alg».proof.Proof.Gen.Kernel.Points
import proofs.«404026_j58909771432702_2_alg».proof.Proof.Gen.Kernel.Frame
import proofs.«404026_j58909771432702_2_alg».proof.Proof.Gen.KernelIdeal
import proofs.«404026_j58909771432702_2_alg».proof.Proof.Gen.KernelIdeal.Skeleton
import proofs.«404026_j58909771432702_2_alg».proof.Proof.Gen.KernelIdeal.Launch
import proofs.«404026_j58909771432702_2_alg».proof.Proof.Gen.KernelIdeal.Points
import proofs.«404026_j58909771432702_2_alg».proof.Proof.Gen.KernelIdeal.Frame
import proofs.«404026_j58909771432702_2_alg».proof.Proof.Gen.ReferenceIdeal
import proofs.«404026_j58909771432702_2_alg».proof.Proof.Gen.Pre_any_inputs
import proofs.«404026_j58909771432702_2_alg».proof.Proof.RefRead
import proofs.«404026_j58909771432702_2_alg».proof.Proof.RefCounts
import proofs.«404026_j58909771432702_2_alg».proof.Proof.LabelRange
import proofs.«404026_j58909771432702_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The reshaped rows of a volume whose entries are in range are in range. -/
theorem rows_in_range (x : IVec Cert.ReferenceIdeal.S4x64x256x256 32) (h : ∀ i, 0 ≤ (x i).toInt ∧ (x i).toInt < 5) :
    Cert.Dice.InRange (Cert.ReferenceIdeal.ReadP.val_main_v0 (F := Ideal) x) := fun i => by
  rw [Cert.ReferenceIdeal.ReadP.val_main_v0_apply]; exact h _

theorem rows_in_range' (x : IVec Cert.ReferenceIdeal.S4x64x256x256 32) (h : ∀ i, 0 ≤ (x i).toInt ∧ (x i).toInt < 5) :
    Cert.Dice.InRange (Cert.ReferenceIdeal.ReadP.val_main_v1 (F := Ideal) x) := fun i => by
  rw [Cert.ReferenceIdeal.ReadP.val_main_v1_apply]; exact h _

/-- From label volumes that agree and are in range both programs end at the same score. -/
theorem algebraic : Cert.algebraic_KernelIdeal_ReferenceIdeal := by
  intro m ρ m' ρ' hpre hagree
  refine ⟨fun c => Cert.KernelIdeal.Gen.score m c, Cert.KernelIdeal.Gen.value_run m ρ, ?_⟩
  refine (θ_run Cert.ReferenceIdeal.defs _ _).mono (fun _ h c => ⟨(h c).1.trans ?_, (h c).2⟩)
    (Cert.ReferenceIdeal.ValueP.run (F := Ideal) m' ρ')
  obtain ⟨r0, r1⟩ := Cert.Dice.labels_in_range _ _ (hpre c)
  rw [Cert.ReferenceIdeal.ReadP.val_main_v51_eq, (hagree c).1, (hagree c).2,
    Cert.Dice.ref_value _ _ (rows_in_range _ r0) (rows_in_range' _ r1)]
  show _ = Cert.KernelIdeal.Gen.score m c
  unfold Cert.KernelIdeal.Gen.score
  rw [Cert.KernelIdeal.Gen.rowsP_eq m c, Cert.KernelIdeal.Gen.rowsT_eq m c]
  rfl

theorem claim : Cert.Claim := ⟨Cert.Kernel.Gen.facts, Cert.KernelIdeal.Gen.facts, Cert.ReferenceIdeal.Gen.facts, Cert.Pre_any_inputs.Gen.facts,
  frame_k, frame_ki, frame_ri, trivial, algebraic⟩

end Cert.Proof

end
